-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x128 : Shape := ⟨2, ![20000, 128]⟩
abbrev S640000 : Shape := ⟨1, ![640000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_v48 main_v49 main_v50

def fn_part1 {F : FTy → Type} [FloatOps F] (main_arg6 : FVec F S256x128 .f32) (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x128 .f32) (main_arg1 : FVec F S20000x128 .f32) (main_arg2 : IVec S640000 32) (main_arg3 : IVec S640000 32) (main_arg4 : FVec F S128x128 .f32) (main_arg5 : FVec F S128 .f32) (main_arg6 : FVec F S256x128 .f32) (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x128 : Shape := ⟨2, ![100000, 128]⟩
abbrev S20000x128 : Shape := ⟨2, ![20000, 128]⟩
abbrev S640000 : Shape := ⟨1, ![640000]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S5000x128 : Shape := ⟨2, ![5000, 128]⟩
abbrev S_ : Shape := ⟨0, ![]⟩
abbrev S640000x1 : Shape := ⟨2, ![640000, 1]⟩
abbrev S640000x128 : Shape := ⟨2, ![640000, 128]⟩
abbrev S20000x256 : Shape := ⟨2, ![20000, 256]⟩
abbrev S2000x256 : Shape := ⟨2, ![2000, 256]⟩
abbrev S2000x128 : Shape := ⟨2, ![2000, 128]⟩

abbrev nBuf : Space → Nat
  | .hbm => 57
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S1x128, .f32⟩
  | .hbm, ⟨17, _⟩ => ⟨S100000x128, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S_, .f32⟩
  | .hbm, ⟨28, _⟩ => ⟨S20000x128, .f32⟩
  | .hbm, ⟨29, _⟩ => ⟨S640000x1, .i32⟩
  | .hbm, ⟨30, _⟩ => ⟨S20000x128, .f32⟩
  | .hbm, ⟨31, _⟩ => ⟨S20000x256, .f32⟩
  | .hbm, ⟨32, _⟩ => ⟨S1x128, .f32⟩
  | .hbm, ⟨33, _⟩ => ⟨S20000x128, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000x128, .f32⟩
  | .hbm, ⟨43, _⟩ => ⟨S_, .f32⟩
  | .hbm, ⟨44, _⟩ => ⟨S100000x128, .f32⟩
  | .hbm, ⟨45, _⟩ => ⟨S640000x1, .i32⟩
  | .hbm, ⟨46, _⟩ => ⟨S100000x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S100000x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S20000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S2000x256, .f32⟩
  | .local _ .vmem, ⟨7, _⟩ => ⟨S2000x256, .f32⟩
  | .local _ .vmem, ⟨8, _⟩ => ⟨S256x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S2000x128, .f32⟩
  | .local _ .vmem, ⟨23, _⟩ => ⟨S2000x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_1 : Ref sig .tc := ⟨.hbm, 34, rfl⟩
abbrev main_v15 : Ref sig .tc := ⟨.hbm, 35, rfl⟩
abbrev main_v16 : Ref sig .tc := ⟨.hbm, 36, rfl⟩
abbrev main_c_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc3_stg6_0 : Ref sig .tc := ⟨.vmem, 30, rfl⟩
abbrev cc3_stg6_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc3_sem6_0 : DmaSem sig := 30
abbrev cc3_sem6_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  concatenates_S20000x128_S20000x128_S20000x256_d1 : Shape.Concatenates [S20000x128, S20000x128] S20000x256 1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  shapeCasts_S5000x128_S5000x128 : S5000x128.ShapeCasts S5000x128
  shapeCasts_S2000x128_S2000x128 : S2000x128.ShapeCasts S2000x128
  dot_S5000x128_S128x128_S5000x128_1_0_0_1_n_n_wf : DotDims.WF S5000x128 S128x128 S5000x128 [1] [0] [0] [1] [] []
  gather_S100000x128_S640000x1_S640000x128_1_0_n_n_0_1_1128_wf : GatherDims.WF S100000x128 S640000x1 S640000x128 [1] [0] [] [0] [] 1 ![1, 128]
  scatter_S20000x128_S640000x1_S640000x128_1_0_0_1_wf : ScatterDims.WF S20000x128 S640000x1 S640000x128 [1] [0] [0] 1
  dot_S2000x256_S256x128_S2000x128_1_0_0_1_n_n_wf : DotDims.WF S2000x256 S256x128 S2000x128 [1] [0] [0] [1] [] []
  gather_S20000x128_S640000x1_S640000x128_1_0_n_n_0_1_1128_wf : GatherDims.WF S20000x128 S640000x1 S640000x128 [1] [0] [] [0] [] 1 ![1, 128]
  scatter_S100000x128_S640000x1_S640000x128_1_0_0_1_wf : ScatterDims.WF S100000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S20000x128.size a
  hwx1_3 : ∀ i : grid1.Coords, EltTy.bits .f32 = 32 ∨ (Rect.block (s := S20000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S20000x128.size a
  hwx3_0 : ∀ i : grid3.Coords, EltTy.bits .f32 = 32 ∨ (Rect.block (s := S20000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S20000x128.size a
  hwx3_5 : ∀ i : grid3.Coords, EltTy.bits .f32 = 32 ∨ (Rect.block (s := S20000x128) S2000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S20000x128.size a
  hwx3_6 : ∀ i : grid3.Coords, EltTy.bits .f32 = 32 ∨ (Rect.block (s := S20000x128) S2000x128.size (cc3_transform_6 i) (hinb3_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v24) S5000x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v29) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg1) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v32) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v33) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v11) S2000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v34) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S20000x128 : Shape := ⟨2, ![20000, 128]⟩
abbrev S640000 : Shape := ⟨1, ![640000]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S20000x256 : Shape := ⟨2, ![20000, 256]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S100000x128, .f32⟩
  | .hbm, ⟨17, _⟩ => ⟨S1x128, .f32⟩
  | .hbm, ⟨18, _⟩ => ⟨S100000x128, .f32⟩
  | .hbm, ⟨19, _⟩ => ⟨S100000x128, .f32⟩
  | .hbm, ⟨20, _⟩ => ⟨S100000x128, .f32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | .hbm, ⟨25, _⟩ => ⟨S_, .f32⟩
  | .hbm, ⟨26, _⟩ => ⟨S100000x128, .f32⟩
  | .hbm, ⟨27, _⟩ => ⟨S100000x128, .f32⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000x128, .f32⟩
  | .hbm, ⟨37, _⟩ => ⟨S_, .f32⟩
  | .hbm, ⟨38, _⟩ => ⟨S20000x128, .f32⟩
  | .hbm, ⟨39, _⟩ => ⟨S640000x1, .i32⟩
  | .hbm, ⟨40, _⟩ => ⟨S20000x128, .f32⟩
  | .hbm, ⟨41, _⟩ => ⟨S20000x256, .f32⟩
  | .hbm, ⟨42, _⟩ => ⟨S20000x128, .f32⟩
  | .hbm, ⟨43, _⟩ => ⟨S1x128, .f32⟩
  | .hbm, ⟨44, _⟩ => ⟨S20000x128, .f32⟩
  | .hbm, ⟨45, _⟩ => ⟨S20000x128, .f32⟩
  | .hbm, ⟨46, _⟩ => ⟨S20000x128, .f32⟩
  | .hbm, ⟨47, _⟩ => ⟨S20000x128, .f32⟩
  | .hbm, ⟨48, _⟩ => ⟨S_, .f32⟩
  | .hbm, ⟨49, _⟩ => ⟨S20000x128, .f32⟩
  | .hbm, ⟨50, _⟩ => ⟨S20000x128, .f32⟩
  | .hbm, ⟨51, _⟩ => ⟨S_, .f32⟩
  | .hbm, ⟨52, _⟩ => ⟨S20000x128, .f32⟩
  | .hbm, ⟨53, _⟩ => ⟨S20000x128, .f32⟩
  | .hbm, ⟨54, _⟩ => ⟨S_, .i32⟩
  | .hbm, ⟨55, _⟩ => ⟨S640000, .i32⟩
  | .hbm, ⟨56, _⟩ => ⟨S640000, .i1⟩
  | .hbm, ⟨57, _⟩ => ⟨S_, .i32⟩
  | .hbm, ⟨58, _⟩ => ⟨S640000, .i32⟩
  | .hbm, ⟨59, _⟩ => ⟨S640000, .i32⟩
  | .hbm, ⟨60, _⟩ => ⟨S640000, .i32⟩
  | .hbm, ⟨61, _⟩ => ⟨S640000x1, .i32⟩
  | .hbm, ⟨62, _⟩ => ⟨S640000x128, .f32⟩
  | .hbm, ⟨63, _⟩ => ⟨S_, .f32⟩
  | .hbm, ⟨64, _⟩ => ⟨S100000x128, .f32⟩
  | .hbm, ⟨65, _⟩ => ⟨S640000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S1x128, .f32⟩
  | .hbm, ⟨93, _⟩ => ⟨S20000x128, .f32⟩
  | .hbm, ⟨94, _⟩ => ⟨S20000x128, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S128, .f32⟩
  | .hbm, ⟨99, _⟩ => ⟨S1x128, .f32⟩
  | .hbm, ⟨100, _⟩ => ⟨S20000x128, .f32⟩
  | .hbm, ⟨101, _⟩ => ⟨S20000x128, .f32⟩
  | .hbm, ⟨102, _⟩ => ⟨S1x128, .f32⟩
  | .hbm, ⟨103, _⟩ => ⟨S20000x128, .f32⟩
  | .hbm, ⟨104, _⟩ => ⟨S20000x128, .f32⟩
  | .hbm, ⟨105, _⟩ => ⟨S1x128, .f32⟩
  | .hbm, ⟨106, _⟩ => ⟨S20000x128, .f32⟩
  | .hbm, ⟨107, _⟩ => ⟨S20000x128, .f32⟩
  | .hbm, ⟨108, _⟩ => ⟨S20000x128, .f32⟩
  | .hbm, ⟨109, _⟩ => ⟨S20000x128, .f32⟩
  | .hbm, ⟨110, _⟩ => ⟨S20000x128, .f32⟩
  | .hbm, ⟨111, _⟩ => ⟨S_, .f32⟩
  | .hbm, ⟨112, _⟩ => ⟨S20000x128, .f32⟩
  | .hbm, ⟨113, _⟩ => ⟨S20000x128, .f32⟩
  | .hbm, ⟨114, _⟩ => ⟨S_, .f32⟩
  | .hbm, ⟨115, _⟩ => ⟨S20000x128, .f32⟩
  | .hbm, ⟨116, _⟩ => ⟨S20000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_c_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_8 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_9 : Ref sig .tc := ⟨.hbm, 86, rfl⟩
abbrev main_v59 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_11 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_12 : Ref sig .tc := ⟨.hbm, 111, rfl⟩
abbrev main_v81 : Ref sig .tc := ⟨.hbm, 112, rfl⟩
abbrev main_v82 : Ref sig .tc := ⟨.hbm, 113, rfl⟩
abbrev main_cst_13 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  concatenates_S20000x128_S20000x128_S20000x256_d1 : Shape.Concatenates [S20000x128, S20000x128] S20000x256 1
  bcast_S1x128_S20000x128_0_1 : S1x128.BroadcastsInDim S20000x128 (![0, 1] : Fin 2 → Fin S20000x128.rank)
  bcast_S_S128 : S_.BroadcastsInDim S128 (![] : Fin 0 → Fin S128.rank)
  dot_S100000x128_S128x128_S100000x128_1_0_0_1_n_n_wf : DotDims.WF S100000x128 S128x128 S100000x128 [1] [0] [0] [1] [] []
  gather_S100000x128_S640000x1_S640000x128_1_0_n_n_0_1_1128_wf : GatherDims.WF S100000x128 S640000x1 S640000x128 [1] [0] [] [0] [] 1 ![1, 128]
  scatter_S20000x128_S640000x1_S640000x128_1_0_0_1_wf : ScatterDims.WF S20000x128 S640000x1 S640000x128 [1] [0] [0] 1
  dot_S20000x256_S256x128_S20000x128_1_0_0_1_n_n_wf : DotDims.WF S20000x256 S256x128 S20000x128 [1] [0] [0] [1] [] []
  gather_S20000x128_S640000x1_S640000x128_1_0_n_n_0_1_1128_wf : GatherDims.WF S20000x128 S640000x1 S640000x128 [1] [0] [] [0] [] 1 ![1, 128]
  scatter_S100000x128_S640000x1_S640000x128_1_0_0_1_wf : ScatterDims.WF S100000x128 S640000x1 S640000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

class Facts : Prop extends Facts₀ where

variable [Facts]
-- ==== Proof.LibStagedRun.lean ====
/-
  Reading a long straight line of host operations in stages.

  The contents a line of host operations leaves (`StableHlo.after`) can be read one buffer at a time by rewriting each
  operation's result. Read in one go, a value that several later operations use is copied once per use, and a line of
  a hundred operations over a graph's index arrays no longer fits. Three tools keep it small.

  * `after_take_drop`: the fold over a line is the fold over its first k operations followed by the fold over the
    rest. Cut the line at the mathematical boundaries, give the contents after each cut a name by a `def` (so that it
    stays folded), and read each stage's buffers as functions of the named contents of the stage before.
  * `results_rw`: after the one-pass reading (`after_results_simp`), which shares every value but does not look
    inside the pieces of a concatenation, this rewriting loop reads what is left there.
  * `cast_there_and_back`: the operations of a module-local function are written at their tensor types and moved to
    their buffers' types and back; after a reading these moves come in pairs around every intermediate value, and
    rewriting with this lemma removes each pair without ever computing a buffer's type.
-/
import Idealize.ShloMosaic.Lib.StableHlo.Run

namespace Cert.Lib.StagedRun

open Idealize.ShloMosaic Idealize.ShloMosaic.StableHlo

/-- Reads what is left of a fold after the one-pass reading: each operation's result at its own buffer, any other
    buffer as it was, also inside the pieces of a concatenation. -/
macro "results_rw" : tactic => `(tactic| (repeat (first
  | rw [nullary_result] | rw [unary_result] | rw [binary_result] | rw [ternary_result] | rw [quaternary_result]
  | rw [reshape_result]
  | (rw [nullary_result_ne]; rotate_left; decide)
  | (rw [unary_result_ne]; rotate_left; decide)
  | (rw [binary_result_ne]; rotate_left; decide)
  | (rw [ternary_result_ne]; rotate_left; decide)
  | (rw [quaternary_result_ne]; rotate_left; decide)
  | (rw [reshape_result_ne]; rotate_left; decide))))

variable {τ : Topo} {sig : RefSig} {Val : EltTy → Type}

/-- Folding a line of operations is folding its first k and then the rest. -/
theorem after_take_drop (L : List (HloOp τ sig Val)) (k : Nat) (V : Valuation τ sig Val) :
    after L V = after (L.drop k) (after (L.take k) V) := by
  induction k generalizing L V with
  | zero => rfl
  | succ k ih =>
    cases L with
    | nil => rfl
    | cons op l => exact ih l (op.result V)

/-- Moving a value along an equation of types and back gives the value. -/
theorem cast_there_and_back {α β : Sort _} (h : α = β) (h' : β = α) (v : α) : cast h' (cast h v) = v := by
  subst h; rfl

end Cert.Lib.StagedRun
-- ==== Proof.Walk.lean ====
/-
  What each region is entered with, read back through the run's folds.

  Between the launch and the return the buffer contents change in eight steps: four stretches of host operations
  (each writes only its own result buffers) and four regions (each changes only its output array).  An argument array
  is written by nothing, so it holds its launch contents at every step.  The results of the host stretches are read
  off the stretch: a parameter row is its vector given a leading unit axis; the aggregated node message is the
  accumulating scatter of the gathered rows of the first region's result; the concatenated hyperedge features put the
  hyperedge's own features beside that aggregate; the aggregated hyperedge message is the same scatter of gathered rows
  of the second region's result.  The two aggregations and the concatenation are carried as named functions of their
  operands and never opened.  Stated for any float instance.
-/
import proofs.«160724_j15118284882724_1_alg».proof.Proof.Gen.KernelIdeal.Frame
import proofs.«160724_j15118284882724_1_alg».proof.Proof.LibStagedRun
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.ShloMosaic.StableHlo
open Idealize.SL.Sem Cert.Lib.StagedRun

variable {F : FTy → Type} [FloatOps F]

/-! ## The host stretches' results as functions of their operands -/

/-- A parameter vector given a leading unit axis. -/
def row (x : (⟨S128, .f32⟩ : BufTy).Contents (Elt F)) : (⟨S1x128, .f32⟩ : BufTy).Contents (Elt F) :=
  shapeCast S1x128 x shapeCasts_S128_S1x128

/-- The node messages aggregated into the hyperedges: rows of `nm` gathered through the node index array (a negative
    index wrapped by the node count), scattered with accumulation through the hyperedge index array into zeros. -/
def aggNodes (nm : (⟨S100000x128, .f32⟩ : BufTy).Contents (Elt F)) (incN incE : (⟨S640000, .i32⟩ : BufTy).Contents (Elt F)) :
    (⟨S20000x128, .f32⟩ : BufTy).Contents (Elt F) :=
  Host.scatterAdd scatter_S20000x128_S640000x1_S640000x128_1_0_0_1
    (broadcastInDim S20000x128 ![] bcast_S_S20000x128 (constant S_ .f32 0x00000000#32))
    (broadcastInDim S640000x1 ![0] bcast_S640000_S640000x1_0 incE)
    (Host.gather gather_S100000x128_S640000x1_S640000x128_1_0_n_n_0_1_1128 nm
      (broadcastInDim S640000x1 ![0] bcast_S640000_S640000x1_0
        (select (cmpi .slt incN (broadcastInDim S640000 ![] bcast_S_S640000 (constantI S_ 32 0#32)))
          (addi incN (broadcastInDim S640000 ![] bcast_S_S640000 (constantI S_ 32 100000#32))) incN)))

/-- The hyperedge messages aggregated into the nodes: the same with the two index arrays' roles exchanged. -/
def aggEdges (he : (⟨S20000x128, .f32⟩ : BufTy).Contents (Elt F)) (incE incN : (⟨S640000, .i32⟩ : BufTy).Contents (Elt F)) :
    (⟨S100000x128, .f32⟩ : BufTy).Contents (Elt F) :=
  Host.scatterAdd scatter_S100000x128_S640000x1_S640000x128_1_0_0_1
    (broadcastInDim S100000x128 ![] bcast_S_S100000x128 (constant S_ .f32 0x00000000#32))
    (broadcastInDim S640000x1 ![0] bcast_S640000_S640000x1_0 incN)
    (Host.gather gather_S20000x128_S640000x1_S640000x128_1_0_n_n_0_1_1128 he
      (broadcastInDim S640000x1 ![0] bcast_S640000_S640000x1_0
        (select (cmpi .slt incE (broadcastInDim S640000 ![] bcast_S_S640000 (constantI S_ 32 0#32)))
          (addi incE (broadcastInDim S640000 ![] bcast_S_S640000 (constantI S_ 32 20000#32))) incE)))

/-- The hyperedge's own features beside the aggregated node messages. -/
def beside (x1 agg : (⟨S20000x128, .f32⟩ : BufTy).Contents (Elt F)) : (⟨S20000x256, .f32⟩ : BufTy).Contents (Elt F) :=
  concatenate S20000x256 1 [⟨S20000x128, x1⟩, ⟨S20000x128, agg⟩] concatenates_S20000x128_S20000x128_S20000x256_d1

/-! ## A stretch of host operations leaves an argument array alone

Every buffer a host operation writes has an index of 16 or more among the processor's HBM buffers; the sixteen argument
arrays have the indices below. -/

theorem keep0 (W : Valuation τ sig (Elt F)) (b : Ref sig .tc) (hb : b.idx.val < 16) :
    StableHlo.after hostOps0 W (Proc.devRef .tc b) = W (Proc.devRef .tc b) := by
  refine StableHlo.after_of_forall_not_mem _ _ (List.forall_iff_forall_mem.mp ?_)
  simp only [hostOps0, List.Forall, StableHlo.nullary_writes, StableHlo.unary_writes, StableHlo.binary_writes,
    StableHlo.ternary_writes, StableHlo.reshape_writes, Finset.mem_singleton]
  repeat' apply And.intro
  all_goals exact StableHlo.devRef_ne_of_ne (fun h => by subst h; exact absurd hb (by decide))

theorem keep1 (W : Valuation τ sig (Elt F)) (b : Ref sig .tc) (hb : b.idx.val < 16) :
    StableHlo.after hostOps1 W (Proc.devRef .tc b) = W (Proc.devRef .tc b) := by
  refine StableHlo.after_of_forall_not_mem _ _ (List.forall_iff_forall_mem.mp ?_)
  simp only [hostOps1, List.Forall, StableHlo.nullary_writes, StableHlo.unary_writes, StableHlo.binary_writes,
    StableHlo.ternary_writes, StableHlo.reshape_writes, Finset.mem_singleton]
  repeat' apply And.intro
  all_goals exact StableHlo.devRef_ne_of_ne (fun h => by subst h; exact absurd hb (by decide))

theorem keep2 (W : Valuation τ sig (Elt F)) (b : Ref sig .tc) (hb : b.idx.val < 16) :
    StableHlo.after hostOps2 W (Proc.devRef .tc b) = W (Proc.devRef .tc b) := by
  refine StableHlo.after_of_forall_not_mem _ _ (List.forall_iff_forall_mem.mp ?_)
  simp only [hostOps2, List.Forall, StableHlo.nullary_writes, StableHlo.unary_writes, StableHlo.binary_writes,
    StableHlo.ternary_writes, StableHlo.reshape_writes, Finset.mem_singleton]
  repeat' apply And.intro
  all_goals exact StableHlo.devRef_ne_of_ne (fun h => by subst h; exact absurd hb (by decide))

theorem keep3 (W : Valuation τ sig (Elt F)) (b : Ref sig .tc) (hb : b.idx.val < 16) :
    StableHlo.after hostOps3 W (Proc.devRef .tc b) = W (Proc.devRef .tc b) := by
  refine StableHlo.after_of_forall_not_mem _ _ (List.forall_iff_forall_mem.mp ?_)
  simp only [hostOps3, List.Forall, StableHlo.nullary_writes, StableHlo.unary_writes, StableHlo.binary_writes,
    StableHlo.ternary_writes, StableHlo.reshape_writes, Finset.mem_singleton]
  repeat' apply And.intro
  all_goals exact StableHlo.devRef_ne_of_ne (fun h => by subst h; exact absurd hb (by decide))

/-- The third stretch leaves the aggregated node messages alone. -/
theorem keep2_v11 (W : Valuation τ sig (Elt F)) :
    StableHlo.after hostOps2 W (Proc.devRef .tc main_v11) = W (Proc.devRef .tc main_v11) := by
  refine StableHlo.after_of_forall_not_mem _ _ (List.forall_iff_forall_mem.mp ?_)
  simp only [hostOps2, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- The fourth stretch leaves the aggregated node messages alone. -/
theorem keep3_v11 (W : Valuation τ sig (Elt F)) :
    StableHlo.after hostOps3 W (Proc.devRef .tc main_v11) = W (Proc.devRef .tc main_v11) := by
  refine StableHlo.after_of_forall_not_mem _ _ (List.forall_iff_forall_mem.mp ?_)
  simp only [hostOps3, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-- The fourth stretch leaves the first result alone. -/
theorem keep3_v29 (W : Valuation τ sig (Elt F)) :
    StableHlo.after hostOps3 W (Proc.devRef .tc main_v29) = W (Proc.devRef .tc main_v29) := by
  refine StableHlo.after_of_forall_not_mem _ _ (List.forall_iff_forall_mem.mp ?_)
  simp only [hostOps3, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-! ## The folds, level by level -/

variable (m : (ℓ : Loc nD τ sig) → Buf (Elt F) ℓ) (ρ : Dev nD → PrngReg) (c : Dev nD)

/-! ### Entering the first region: after the first stretch -/

/-- An argument array still holds its launch contents. -/
theorem W1_arg (b : Ref sig .tc) (hb : b.idx.val < 16) :
    W1 m ρ c (Proc.devRef .tc b) = m ((c : Thread nD τ).loc b) := keep0 (W0 m ρ c) b hb

/-- The first layer's bias as a row. -/
theorem W1_v0 : W1 m ρ c (Proc.devRef .tc main_v0) = row (m ((c : Thread nD τ).loc main_arg5)) := by
  show StableHlo.after hostOps0 (W0 m ρ c) (Proc.devRef .tc main_v0) = _
  after_results
  rfl

/-! ### After the first region -/

/-- An argument array that is not one of the region's arrays. -/
theorem W2_arg (b : Ref sig .tc) (hb : b.idx.val < 16) (hne : ∀ w, Pipeline.arrRef spec0 w ≠ b) :
    W2 m ρ c (Proc.devRef .tc b) = m ((c : Thread nD τ).loc b) :=
  (W2_of_ne m ρ c b hne).trans (W1_arg m ρ c b hb)

/-- The node features, which the region reads through an input window. -/
theorem W2_arg0 : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans
    (W1_arg m ρ c main_arg0 (by decide))

/-- The node messages: what the region's write-backs leave in its output array. -/
theorem W2_v1 : W2 m ρ c (Proc.devRef .tc main_v1) = (dat0 (V1 m ρ) c).arrAt 3 cfg0.N := W2_arr m ρ c 3

/-! ### Entering the second region: after the second stretch -/

/-- The second stretch leaves an argument array as it was. -/
theorem W3_arg (b : Ref sig .tc) (hb : b.idx.val < 16) {x : Buf (Elt F) ((c : Thread nD τ).loc b)}
    (h : W2 m ρ c (Proc.devRef .tc b) = x) : W3 m ρ c (Proc.devRef .tc b) = x :=
  (keep1 (W2 m ρ c) b hb).trans h

/-- The node messages aggregated into the hyperedges. -/
theorem W3_v11 : W3 m ρ c (Proc.devRef .tc main_v11)
    = aggNodes (W2 m ρ c (Proc.devRef .tc main_v1)) (W2 m ρ c (Proc.devRef .tc main_arg2)) (W2 m ρ c (Proc.devRef .tc main_arg3)) := by
  show StableHlo.after hostOps1 (W2 m ρ c) (Proc.devRef .tc main_v11) = _
  after_results
  rfl

set_option maxHeartbeats 1000000 in
/-- The concatenated hyperedge features: the hyperedge's own beside that aggregate (the two pieces of the concatenation
    are read one after the other, each as the stretch leaves it). -/
theorem W3_v12 : W3 m ρ c (Proc.devRef .tc main_v12)
    = beside (W2 m ρ c (Proc.devRef .tc main_arg1))
        (aggNodes (W2 m ρ c (Proc.devRef .tc main_v1)) (W2 m ρ c (Proc.devRef .tc main_arg2)) (W2 m ρ c (Proc.devRef .tc main_arg3))) := by
  show StableHlo.after hostOps1 (W2 m ρ c) (Proc.devRef .tc main_v12) = _
  after_results_simp
  results_rw
  rfl

/-- The second layer's bias as a row. -/
theorem W3_v13 : W3 m ρ c (Proc.devRef .tc main_v13) = row (W2 m ρ c (Proc.devRef .tc main_arg7)) := by
  show StableHlo.after hostOps1 (W2 m ρ c) (Proc.devRef .tc main_v13) = _
  after_results
  rfl

/-! ### After the second region -/

/-- A buffer that is not one of the second region's arrays is as the region found it. -/
theorem W4_keep (b : Ref sig .tc) (hne : ∀ w, Pipeline.arrRef spec1 w ≠ b) {x : Buf (Elt F) ((c : Thread nD τ).loc b)}
    (h : W3 m ρ c (Proc.devRef .tc b) = x) : W4 m ρ c (Proc.devRef .tc b) = x :=
  (W4_of_ne m ρ c b hne).trans h

/-- The hyperedge messages: what the region's write-backs leave in its output array. -/
theorem W4_v14 : W4 m ρ c (Proc.devRef .tc main_v14) = (dat1 (V3 m ρ) c).arrAt 3 cfg1.N := W4_arr m ρ c 3

/-! ### Entering the third region: after the third stretch -/

/-- The third stretch leaves an argument array as it was. -/
theorem W5_arg (b : Ref sig .tc) (hb : b.idx.val < 16) {x : Buf (Elt F) ((c : Thread nD τ).loc b)}
    (h : W4 m ρ c (Proc.devRef .tc b) = x) : W5 m ρ c (Proc.devRef .tc b) = x :=
  (keep2 (W4 m ρ c) b hb).trans h

/-- … and the aggregated node messages. -/
theorem W5_v11 {x : Buf (Elt F) ((c : Thread nD τ).loc main_v11)} (h : W4 m ρ c (Proc.devRef .tc main_v11) = x) :
    W5 m ρ c (Proc.devRef .tc main_v11) = x := (keep2_v11 (W4 m ρ c)).trans h

/-- The hyperedge messages aggregated into the nodes. -/
theorem W5_v24 : W5 m ρ c (Proc.devRef .tc main_v24)
    = aggEdges (W4 m ρ c (Proc.devRef .tc main_v14)) (W4 m ρ c (Proc.devRef .tc main_arg3)) (W4 m ρ c (Proc.devRef .tc main_arg2)) := by
  show StableHlo.after hostOps2 (W4 m ρ c) (Proc.devRef .tc main_v24) = _
  after_results
  rfl

/-- The node normalisation's four parameters as rows. -/
theorem W5_v25 : W5 m ρ c (Proc.devRef .tc main_v25) = row (W4 m ρ c (Proc.devRef .tc main_arg8)) := by
  show StableHlo.after hostOps2 (W4 m ρ c) (Proc.devRef .tc main_v25) = _
  after_results
  rfl
theorem W5_v26 : W5 m ρ c (Proc.devRef .tc main_v26) = row (W4 m ρ c (Proc.devRef .tc main_arg9)) := by
  show StableHlo.after hostOps2 (W4 m ρ c) (Proc.devRef .tc main_v26) = _
  after_results
  rfl
theorem W5_v27 : W5 m ρ c (Proc.devRef .tc main_v27) = row (W4 m ρ c (Proc.devRef .tc main_arg10)) := by
  show StableHlo.after hostOps2 (W4 m ρ c) (Proc.devRef .tc main_v27) = _
  after_results
  rfl
theorem W5_v28 : W5 m ρ c (Proc.devRef .tc main_v28) = row (W4 m ρ c (Proc.devRef .tc main_arg11)) := by
  show StableHlo.after hostOps2 (W4 m ρ c) (Proc.devRef .tc main_v28) = _
  after_results
  rfl

/-! ### After the third region -/

/-- A buffer that is not one of the third region's arrays is as the region found it. -/
theorem W6_keep (b : Ref sig .tc) (hne : ∀ w, Pipeline.arrRef spec2 w ≠ b) {x : Buf (Elt F) ((c : Thread nD τ).loc b)}
    (h : W5 m ρ c (Proc.devRef .tc b) = x) : W6 m ρ c (Proc.devRef .tc b) = x :=
  (W6_of_ne m ρ c b hne).trans h

/-- The first result: what the region's write-backs leave in its output array. -/
theorem W6_v29 : W6 m ρ c (Proc.devRef .tc main_v29) = (dat2 (V5 m ρ) c).arrAt 6 cfg2.N := W6_arr m ρ c 6

/-! ### Entering the fourth region: after the fourth stretch -/

/-- The fourth stretch leaves an argument array as it was. -/
theorem W7_arg (b : Ref sig .tc) (hb : b.idx.val < 16) {x : Buf (Elt F) ((c : Thread nD τ).loc b)}
    (h : W6 m ρ c (Proc.devRef .tc b) = x) : W7 m ρ c (Proc.devRef .tc b) = x :=
  (keep3 (W6 m ρ c) b hb).trans h

/-- … and the aggregated node messages. -/
theorem W7_v11 {x : Buf (Elt F) ((c : Thread nD τ).loc main_v11)} (h : W6 m ρ c (Proc.devRef .tc main_v11) = x) :
    W7 m ρ c (Proc.devRef .tc main_v11) = x := (keep3_v11 (W6 m ρ c)).trans h

/-- … and the first result. -/
theorem W7_v29 : W7 m ρ c (Proc.devRef .tc main_v29) = (dat2 (V5 m ρ) c).arrAt 6 cfg2.N :=
  (keep3_v29 (W6 m ρ c)).trans (W6_v29 m ρ c)

/-- The hyperedge normalisation's four parameters as rows. -/
theorem W7_v30 : W7 m ρ c (Proc.devRef .tc main_v30) = row (W6 m ρ c (Proc.devRef .tc main_arg12)) := by
  show StableHlo.after hostOps3 (W6 m ρ c) (Proc.devRef .tc main_v30) = _
  after_results
  rfl
theorem W7_v31 : W7 m ρ c (Proc.devRef .tc main_v31) = row (W6 m ρ c (Proc.devRef .tc main_arg13)) := by
  show StableHlo.after hostOps3 (W6 m ρ c) (Proc.devRef .tc main_v31) = _
  after_results
  rfl
theorem W7_v32 : W7 m ρ c (Proc.devRef .tc main_v32) = row (W6 m ρ c (Proc.devRef .tc main_arg14)) := by
  show StableHlo.after hostOps3 (W6 m ρ c) (Proc.devRef .tc main_v32) = _
  after_results
  rfl
theorem W7_v33 : W7 m ρ c (Proc.devRef .tc main_v33) = row (W6 m ρ c (Proc.devRef .tc main_arg15)) := by
  show StableHlo.after hostOps3 (W6 m ρ c) (Proc.devRef .tc main_v33) = _
  after_results
  rfl

/-! ### After the fourth region: the return -/

/-- The second result: what the last region's write-backs leave in its output array. -/
theorem W8_v34 : W8 m ρ c (Proc.devRef .tc main_v34) = (dat3 (V7 m ρ) c).arrAt 6 cfg3.N := W8_arr m ρ c 6

/-- The first result is not one of the last region's arrays. -/
theorem W8_v29 : W8 m ρ c (Proc.devRef .tc main_v29) = (dat2 (V5 m ρ) c).arrAt 6 cfg2.N :=
  (W8_of_ne m ρ c main_v29 (by decide)).trans (W7_v29 m ρ c)

end Cert.KernelIdeal.Walk

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.PayLin.lean ====
/-
  The body of the linear-layer kernel, read at one entry of its block.

  The body loads a block of rows x, the whole weight matrix w and the bias row b, narrows x and w to bf16 (the identity
  on the extended reals), multiplies them into a zero accumulator, adds the bias row to every row and applies the
  logistic function.  At entry (r, v) of the block this is  logistic (∑ q, x (r, q) · w (q, v) + b (0, v)):
  the product read as a plain sum over the shared axis, the bias broadcast read at its column.
-/
import proofs.«160724_j15118284882724_1_alg».proof.Proof.Gen.KernelIdeal.Skeleton
import proofs.«160724_j15118284882724_1_alg».proof.Proof.LibDotRowsCols
import Idealize.ShloMosaic.Lib.ValueLayout
import Idealize.ShloMosaic.Lib.Pipeline.Value

noncomputable section

open scoped BigOperators

namespace Cert.KernelIdeal.PayLin

open Cert.KernelIdeal Cert.KernelIdeal.Gen Idealize.ShloMosaic Idealize.ShloMosaic.ValueIdx Cert.Lib.DotRowsCols

/-- The first layer's product [5000, 128] × [128, 128] is a rows-by-columns product. -/
theorem rowsCols0 : RowsCols dot_S5000x128_S128x128_S5000x128_1_0_0_1_n_n := ⟨rfl, rfl, rfl, rfl, rfl, rfl⟩

/-- The second layer's product [2000, 256] × [256, 128] is a rows-by-columns product. -/
theorem rowsCols1 : RowsCols dot_S2000x256_S256x128_S2000x128_1_0_0_1_n_n := ⟨rfl, rfl, rfl, rfl, rfl, rfl⟩

/-- The first layer's block at entry (r, v). -/
theorem pay0_apply (x : Vec Ideal S5000x128 .f32) (w : Vec Ideal S128x128 .f32) (b : Vec Ideal S1x128 .f32)
    (r : Fin 5000) (v : Fin 128) :
    k0_pay1 (F := Ideal) x w b (ix2 r v)
      = Ideal.logistic ((∑ q : Fin 128, x (ix2 r q) * w (ix2 q v)) + b (ix2 (0 : Fin 1) v)) := by
  unfold k0_pay1
  show Ideal.logistic (matmul (F := Ideal) dot_S5000x128_S128x128_S5000x128_1_0_0_1_n_n none (truncf .bf16 x bitsLt_bf16_f32)
      (truncf .bf16 w bitsLt_bf16_f32) (constant S5000x128 .f32 0x00000000#32) (ix2 r v)
    + broadcastTo S5000x128 (shapeCast S1x128 b shapeCasts_S1x128_S1x128) broadcasts_S1x128_S5000x128 (ix2 r v)) = _
  rw [rowsCols0.matmul_zero_apply none (truncf .bf16 x bitsLt_bf16_f32) (truncf .bf16 w bitsLt_bf16_f32) (ix2 r v),
    shapeCast_self, broadcastTo_1b_ab_apply]
  rfl

/-- The second layer's block at entry (r, v). -/
theorem pay1_apply (x : Vec Ideal S2000x256 .f32) (w : Vec Ideal S256x128 .f32) (b : Vec Ideal S1x128 .f32)
    (r : Fin 2000) (v : Fin 128) :
    k1_pay1 (F := Ideal) x w b (ix2 r v)
      = Ideal.logistic ((∑ q : Fin 256, x (ix2 r q) * w (ix2 q v)) + b (ix2 (0 : Fin 1) v)) := by
  unfold k1_pay1
  show Ideal.logistic (matmul (F := Ideal) dot_S2000x256_S256x128_S2000x128_1_0_0_1_n_n none
      (truncf .bf16 (shapeCast S2000x256 x shapeCasts_S2000x256_S2000x256) bitsLt_bf16_f32)
      (truncf .bf16 w bitsLt_bf16_f32) (constant S2000x128 .f32 0x00000000#32) (ix2 r v)
    + broadcastTo S2000x128 (shapeCast S1x128 b shapeCasts_S1x128_S1x128) broadcasts_S1x128_S2000x128 (ix2 r v)) = _
  rw [rowsCols1.matmul_zero_apply none (truncf .bf16 (shapeCast S2000x256 x shapeCasts_S2000x256_S2000x256) bitsLt_bf16_f32)
      (truncf .bf16 w bitsLt_bf16_f32) (ix2 r v),
    shapeCast_self, shapeCast_self, broadcastTo_1b_ab_apply]
  rfl

end Cert.KernelIdeal.PayLin

end
-- ==== Proof.Region0.lean ====
/-
  What the first linear-layer region leaves in its output array.

  The region walks twenty blocks of 5000 rows.  At point t it reads rows 5000·t … 5000·t + 4999 of the left operand,
  the whole weight matrix and the whole bias row, and writes the same rows of the result.  Entry (r, v) of the block
  depends on row r of the block only, so each written block is the restriction of ONE function of the whole arrays,
      G (i) = logistic (∑ q, x (i₀, q) · w (q, i₁) + b (0, i₁)),
  and the twenty blocks cover every row: the array ends at G.  Stated at any contents V the region is entered from.
-/
import proofs.«160724_j15118284882724_1_alg».proof.Proof.Gen.KernelIdeal.Frame
import proofs.«160724_j15118284882724_1_alg».proof.Proof.PayLin
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The all-zero offset of a whole-buffer rectangle. -/
theorem hz : (![0, 0] : Fin 2 → Nat) = fun _ => 0 := funext fun a => by fin_cases a <;> rfl

/-- The linear layer of the whole arrays, entry by entry. -/
abbrev G (x : S100000x128.Idx → EReal) (w : S128x128.Idx → EReal) (b : S1x128.Idx → EReal) : S100000x128.Idx → EReal :=
  fun i => Ideal.logistic ((∑ q : Fin 128, x (ix2 (i 0) q) * w (ix2 q (i 1))) + b (ix2 (0 : Fin 1) (i 1)))

/-- The printed index maps over the grid: the row-blocked windows sit at block row t, column block 0; the weights and the
    bias at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of `G` of the arrays as the region finds them. -/
theorem flushed_eq (c : Dev nD) (t : Fin cfg0.N) :
    (dat0 (F := Ideal) V c).flushed 3 t
      = ((cfg0.win 3).blk t).view.read (Elt Ideal) (G (V c main_arg0) (V c main_arg4) (V c main_v0)) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨e00, e01, e10, e11, e20, e21, e30, e31⟩ := idx_facts t
  funext j
  obtain ⟨r, v, rfl⟩ : ∃ (r : Fin 5000) (v : Fin 128), j = ix2 r v := ⟨j 0, j 1, eq_ix2 j⟩
  refine (PayLin.pay0_apply (iblk0 V c 0 t) (iblk0 V c 1 t) (iblk0 V c 2 t) r v).trans ?_
  -- the entry of the whole array that entry (r, v) of block t is: row 5000·t + r, column v
  show _ = G (V c main_arg0) (V c main_arg4) (V c main_v0) (((cfg0.win 3).blk t).view.emb (ix2 r v))
  have hr : r.val < 5000 := r.isLt
  have hv : v.val < 128 := v.isLt
  have ho0 : ((((cfg0.win 3).blk t).view.emb (ix2 r v)) 0).val = t.val * 5000 + r.val := by
    show win0_3.index t (0 : Fin 2) * 5000 + 1 * r.val = _; omega
  have ho1 : ((((cfg0.win 3).blk t).view.emb (ix2 r v)) 1).val = v.val := by
    show win0_3.index t (1 : Fin 2) * 128 + 1 * v.val = _; omega
  -- the left operand's block row r is row 5000·t + r of the array
  have hx : ∀ q : Fin 128, iblk0 V c 0 t (ix2 r q)
      = V c main_arg0 (ix2 ((((cfg0.win 3).blk t).view.emb (ix2 r v)) 0) q) := fun q => by
    show V c main_arg0 (((cfg0.win 0).blk t).view.emb (ix2 r q)) = _
    refine congrArg (V c main_arg0) (funext fun a => Fin.ext ?_)
    match a with
    | ⟨0, _⟩ => show win0_0.index t (0 : Fin 2) * 5000 + 1 * r.val = _; rw [ho0]; omega
    | ⟨1, _⟩ => show win0_0.index t (1 : Fin 2) * 128 + 1 * q.val = q.val; omega
  -- the weights are read whole
  have hw : ∀ q : Fin 128, iblk0 V c 1 t (ix2 q v)
      = V c main_arg4 (ix2 q ((((cfg0.win 3).blk t).view.emb (ix2 r v)) 1)) := fun q => by
    show V c main_arg4 (((cfg0.win 1).blk t).view.emb (ix2 q v)) = _
    refine congrArg (V c main_arg4) (funext fun a => Fin.ext ?_)
    match a with
    | ⟨0, _⟩ => show win0_1.index t (0 : Fin 2) * 128 + 1 * q.val = q.val; omega
    | ⟨1, _⟩ => show win0_1.index t (1 : Fin 2) * 128 + 1 * v.val = _; rw [ho1]; omega
  -- the bias row is read whole
  have hb : iblk0 V c 2 t (ix2 (0 : Fin 1) v)
      = V c main_v0 (ix2 (0 : Fin 1) ((((cfg0.win 3).blk t).view.emb (ix2 r v)) 1)) := by
    show V c main_v0 (((cfg0.win 2).blk t).view.emb (ix2 (0 : Fin 1) v)) = _
    refine congrArg (V c main_v0) (funext fun a => Fin.ext ?_)
    match a with
    | ⟨0, _⟩ => show win0_2.index t (0 : Fin 2) * 1 + 1 * 0 = 0; omega
    | ⟨1, _⟩ => show win0_2.index t (1 : Fin 2) * 128 + 1 * v.val = _; rw [ho1]; omega
  show Ideal.logistic _ = Ideal.logistic _
  rw [hb]
  refine congrArg (fun s => Ideal.logistic (s + _)) (Finset.sum_congr rfl fun q _ => ?_)
  rw [hx q, hw q]

/-- An index of the array lies in point t's block iff each coordinate lies in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v1).slice (win0_3.rect t)).set ↔ _
  rw [View.set_slice_whole, Rect.mem_set_unit]
  exact Iff.rfl

/-- Every row of the array lies in some point's block: row ρ in block ρ / 5000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 20 := N_0
  let t : Fin cfg0.N := ⟨(i 0).val / 5000, by show (i 0).val / 5000 < grid0.N; rw [hN]; omega⟩
  obtain ⟨-, -, -, -, -, -, e30, e31⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE ARRAY the region leaves: the linear layer of the arrays it was entered with, at every entry. -/
theorem final (c : Dev nD) :
    (dat0 (F := Ideal) V c).arrAt 3 cfg0.N = G (V c main_arg0) (V c main_arg4) (V c main_v0) :=
  (dat0 (F := Ideal) V c).arrAt_eq_of_cover 3 (G (V c main_arg0) (V c main_arg4) (V c main_v0))
    (fun t _ => flushed_eq V c t) (cover)

end Cert.KernelIdeal.Region0

end
-- ==== Proof.Region1.lean ====
/-
  What the second linear-layer region leaves in its output array.

  The region walks ten blocks of 2000 rows of the concatenated hyperedge features (256 columns: the hyperedge's own
  features beside the messages aggregated from its nodes).  At point t it reads rows 2000·t … 2000·t + 1999 of that
  array, the whole 256 × 128 weight matrix and the whole bias row, and writes the same rows of the result.  Each written
  block is the restriction of ONE function of the whole arrays,
      G (i) = logistic (∑ q < 256, x (i₀, q) · w (q, i₁) + b (0, i₁)),
  and the ten blocks cover every row: the array ends at G.  Stated at any contents V the region is entered from.
-/
import proofs.«160724_j15118284882724_1_alg».proof.Proof.Gen.KernelIdeal.Frame
import proofs.«160724_j15118284882724_1_alg».proof.Proof.PayLin
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The all-zero offset of a whole-buffer rectangle. -/
theorem hz : (![0, 0] : Fin 2 → Nat) = fun _ => 0 := funext fun a => by fin_cases a <;> rfl

/-- The hyperedge layer of the whole arrays, entry by entry. -/
abbrev G (x : S20000x256.Idx → EReal) (w : S256x128.Idx → EReal) (b : S1x128.Idx → EReal) : S20000x128.Idx → EReal :=
  fun i => Ideal.logistic ((∑ q : Fin 256, x (ix2 (i 0) q) * w (ix2 q (i 1))) + b (ix2 (0 : Fin 1) (i 1)))

/-- The printed index maps over the ten points: the row-blocked windows at block row t, the weights and the bias at (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of `G` of the arrays as the region finds them. -/
theorem flushed_eq (c : Dev nD) (t : Fin cfg1.N) :
    (dat1 (F := Ideal) V c).flushed 3 t
      = ((cfg1.win 3).blk t).view.read (Elt Ideal) (G (V c main_v12) (V c main_arg6) (V c main_v13)) := by
  show (cfg1.win 3).cut (grid1.coords t) ((dat1 (F := Ideal) V c).after 3 t) = _
  rw [after1_3]
  unfold out1_3
  rw [View.canon_unit_zero hz]
  simp only [View.ld_unit_zero (S := S2000x256) hz, View.ld_unit_zero (S := S256x128) hz, View.ld_unit_zero (S := S1x128) hz]
  obtain ⟨e00, e01, e10, e11, e20, e21, e30, e31⟩ := idx_facts t
  funext j
  obtain ⟨r, v, rfl⟩ : ∃ (r : Fin 2000) (v : Fin 128), j = ix2 r v := ⟨j 0, j 1, eq_ix2 j⟩
  refine (PayLin.pay1_apply (iblk1 V c 0 t) (iblk1 V c 1 t) (iblk1 V c 2 t) r v).trans ?_
  -- entry (r, v) of block t is row 2000·t + r, column v of the array
  show _ = G (V c main_v12) (V c main_arg6) (V c main_v13) (((cfg1.win 3).blk t).view.emb (ix2 r v))
  have hr : r.val < 2000 := r.isLt
  have hv : v.val < 128 := v.isLt
  have ho0 : ((((cfg1.win 3).blk t).view.emb (ix2 r v)) 0).val = t.val * 2000 + r.val := by
    show win1_3.index t (0 : Fin 2) * 2000 + 1 * r.val = _; omega
  have ho1 : ((((cfg1.win 3).blk t).view.emb (ix2 r v)) 1).val = v.val := by
    show win1_3.index t (1 : Fin 2) * 128 + 1 * v.val = _; omega
  -- the features' block row r is row 2000·t + r of the array, all 256 columns
  have hx : ∀ q : Fin 256, iblk1 V c 0 t (ix2 r q)
      = V c main_v12 (ix2 ((((cfg1.win 3).blk t).view.emb (ix2 r v)) 0) q) := fun q => by
    have hq : q.val < 256 := q.isLt
    show V c main_v12 (((cfg1.win 0).blk t).view.emb (ix2 r q)) = _
    refine congrArg (V c main_v12) (funext fun a => Fin.ext ?_)
    match a with
    | ⟨0, _⟩ => show win1_0.index t (0 : Fin 2) * 2000 + 1 * r.val = _; rw [ho0]; omega
    | ⟨1, _⟩ => show win1_0.index t (1 : Fin 2) * 256 + 1 * q.val = q.val; omega
  -- the weights are read whole
  have hw : ∀ q : Fin 256, iblk1 V c 1 t (ix2 q v)
      = V c main_arg6 (ix2 q ((((cfg1.win 3).blk t).view.emb (ix2 r v)) 1)) := fun q => by
    show V c main_arg6 (((cfg1.win 1).blk t).view.emb (ix2 q v)) = _
    refine congrArg (V c main_arg6) (funext fun a => Fin.ext ?_)
    match a with
    | ⟨0, _⟩ => show win1_1.index t (0 : Fin 2) * 256 + 1 * q.val = q.val; omega
    | ⟨1, _⟩ => show win1_1.index t (1 : Fin 2) * 128 + 1 * v.val = _; rw [ho1]; omega
  -- the bias row is read whole
  have hb : iblk1 V c 2 t (ix2 (0 : Fin 1) v)
      = V c main_v13 (ix2 (0 : Fin 1) ((((cfg1.win 3).blk t).view.emb (ix2 r v)) 1)) := by
    show V c main_v13 (((cfg1.win 2).blk t).view.emb (ix2 (0 : Fin 1) v)) = _
    refine congrArg (V c main_v13) (funext fun a => Fin.ext ?_)
    match a with
    | ⟨0, _⟩ => show win1_2.index t (0 : Fin 2) * 1 + 1 * 0 = 0; omega
    | ⟨1, _⟩ => show win1_2.index t (1 : Fin 2) * 128 + 1 * v.val = _; rw [ho1]; omega
  show Ideal.logistic _ = Ideal.logistic _
  rw [hb]
  refine congrArg (fun s => Ideal.logistic (s + _)) (Finset.sum_congr rfl fun q _ => ?_)
  rw [hx q, hw q]

/-- An index of the array lies in point t's block iff each coordinate lies in the block's range on its axis. -/
theorem mem_blk (t : Fin cfg1.N) (i : S20000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v14).slice (win1_3.rect t)).set ↔ _
  rw [View.set_slice_whole, Rect.mem_set_unit]
  exact Iff.rfl

/-- Every row of the array lies in some point's block: row ρ in block ρ / 2000. -/
theorem cover (i : S20000x128.Idx) : ∃ t : Fin cfg1.N, (cfg1.win 3).flush t = true ∧ i ∈ ((cfg1.win 3).blk t).view.set := by
  have hi0 : (i 0).val < 20000 := (i 0).isLt
  have hi1 : (i 1).val < 128 := (i 1).isLt
  have hN : grid1.N = 10 := N_1
  let t : Fin cfg1.N := ⟨(i 0).val / 2000, by show (i 0).val / 2000 < grid1.N; rw [hN]; omega⟩
  obtain ⟨-, -, -, -, -, -, e30, e31⟩ := idx_facts t
  have ht : t.val = (i 0).val / 2000 := rfl
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- THE ARRAY the region leaves: the hyperedge layer of the arrays it was entered with, at every entry. -/
theorem final (c : Dev nD) :
    (dat1 (F := Ideal) V c).arrAt 3 cfg1.N = G (V c main_v12) (V c main_arg6) (V c main_v13) :=
  (dat1 (F := Ideal) V c).arrAt_eq_of_cover 3 (G (V c main_v12) (V c main_arg6) (V c main_v13))
    (fun t _ => flushed_eq V c t) (cover)

end Cert.KernelIdeal.Region1

end
-- ==== Proof.PayUpd.lean ====
/-
  The body of the update kernel, read at one entry of its block.

  The body loads a block of rows x, the four parameter rows (variance, mean, scale γ, shift β) and the matching block
  of the aggregated message a.  It forms the reciprocal standard deviation rsqrt (σ² + ε) on the one row, broadcasts
  every row over the block and computes, entry by entry,
      logistic ((((x − μ) · rsqrt (σ² + ε)) · γ + β) + a).
  At entry (r, v) the row broadcasts read their column v.
-/
import proofs.«160724_j15118284882724_1_alg».proof.Proof.Gen.KernelIdeal.Skeleton
import Idealize.ShloMosaic.Lib.ValueLayout
import Idealize.ShloMosaic.Lib.Pipeline.Value

noncomputable section

namespace Cert.KernelIdeal.PayUpd

open Cert.KernelIdeal Cert.KernelIdeal.Gen Idealize.ShloMosaic Idealize.ShloMosaic.ValueIdx

/-- The node update's block of 5000 rows at entry (r, v). -/
theorem pay2_apply (x : Vec Ideal S5000x128 .f32) (var mean gamma beta : Vec Ideal S1x128 .f32) (a : Vec Ideal S5000x128 .f32)
    (r : Fin 5000) (v : Fin 128) :
    k2_pay1 (F := Ideal) x var mean gamma beta a (ix2 r v)
      = Ideal.logistic ((((x (ix2 r v) - mean (ix2 (0 : Fin 1) v)) * Ideal.rsqrt (var (ix2 (0 : Fin 1) v) + Ideal.ofBits .f32 0x3727C5AC#32))
          * gamma (ix2 (0 : Fin 1) v) + beta (ix2 (0 : Fin 1) v)) + a (ix2 r v)) := by
  unfold k2_pay1
  show Ideal.logistic ((((x (ix2 r v)
        - broadcastTo S5000x128 (shapeCast S1x128 mean shapeCasts_S1x128_S1x128) broadcasts_S1x128_S5000x128 (ix2 r v))
      * broadcastTo S5000x128 (rsqrt (F := Ideal) (addf (shapeCast S1x128 var shapeCasts_S1x128_S1x128)
          (broadcast S1x128 (Scalar.ofBits .f32 0x3727C5AC#32)))) broadcasts_S1x128_S5000x128 (ix2 r v))
      * broadcastTo S5000x128 (shapeCast S1x128 gamma shapeCasts_S1x128_S1x128) broadcasts_S1x128_S5000x128 (ix2 r v)
      + broadcastTo S5000x128 (shapeCast S1x128 beta shapeCasts_S1x128_S1x128) broadcasts_S1x128_S5000x128 (ix2 r v))
      + shapeCast S5000x128 a shapeCasts_S5000x128_S5000x128 (ix2 r v)) = _
  rw [shapeCast_self, shapeCast_self, shapeCast_self, shapeCast_self, shapeCast_self,
    broadcastTo_1b_ab_apply, broadcastTo_1b_ab_apply, broadcastTo_1b_ab_apply, broadcastTo_1b_ab_apply]
  rfl

/-- The hyperedge update's block of 2000 rows at entry (r, v): the same body over the shorter block. -/
theorem pay3_apply (x : Vec Ideal S2000x128 .f32) (var mean gamma beta : Vec Ideal S1x128 .f32) (a : Vec Ideal S2000x128 .f32)
    (r : Fin 2000) (v : Fin 128) :
    k3_pay1 (F := Ideal) x var mean gamma beta a (ix2 r v)
      = Ideal.logistic ((((x (ix2 r v) - mean (ix2 (0 : Fin 1) v)) * Ideal.rsqrt (var (ix2 (0 : Fin 1) v) + Ideal.ofBits .f32 0x3727C5AC#32))
          * gamma (ix2 (0 : Fin 1) v) + beta (ix2 (0 : Fin 1) v)) + a (ix2 r v)) := by
  unfold k3_pay1
  show Ideal.logistic ((((x (ix2 r v)
        - broadcastTo S2000x128 (shapeCast S1x128 mean shapeCasts_S1x128_S1x128) broadcasts_S1x128_S2000x128 (ix2 r v))
      * broadcastTo S2000x128 (rsqrt (F := Ideal) (addf (shapeCast S1x128 var shapeCasts_S1x128_S1x128)
          (broadcast S1x128 (Scalar.ofBits .f32 0x3727C5AC#32)))) broadcasts_S1x128_S2000x128 (ix2 r v))
      * broadcastTo S2000x128 (shapeCast S1x128 gamma shapeCasts_S1x128_S1x128) broadcasts_S1x128_S2000x128 (ix2 r v)
      + broadcastTo S2000x128 (shapeCast S1x128 beta shapeCasts_S1x128_S1x128) broadcasts_S1x128_S2000x128 (ix2 r v))
      + shapeCast S2000x128 a shapeCasts_S2000x128_S2000x128 (ix2 r v)) = _
  rw [shapeCast_self, shapeCast_self, shapeCast_self, shapeCast_self, shapeCast_self,
    broadcastTo_1b_ab_apply, broadcastTo_1b_ab_apply, broadcastTo_1b_ab_apply, broadcastTo_1b_ab_apply]
  rfl

end Cert.KernelIdeal.PayUpd

end
-- ==== Proof.Region2.lean ====
/-
  What the node-update region leaves in its output array.

  The region walks twenty blocks of 5000 rows.  At point t it reads rows 5000·t … 5000·t + 4999 of the node features x
  and of the aggregated messages a, and the four whole parameter rows (scale γ, shift β, mean μ, variance σ²), and writes
  the same rows of the result.  Entry (r, v) of the block depends on entry (r, v) of the two row-blocked arrays and on
  column v of the parameter rows, so each written block is the restriction of ONE function of the whole arrays,
      G (i) = logistic ((((x i − μ (0, i₁)) · rsqrt (σ² (0, i₁) + ε)) · γ (0, i₁) + β (0, i₁)) + a i),
  and the twenty blocks cover every row: the array ends at G.  Stated at any contents V the region is entered from.
-/
import proofs.«160724_j15118284882724_1_alg».proof.Proof.Gen.KernelIdeal.Frame
import proofs.«160724_j15118284882724_1_alg».proof.Proof.PayUpd
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The all-zero offset of a whole-buffer rectangle. -/
theorem hz : (![0, 0] : Fin 2 → Nat) = fun _ => 0 := funext fun a => by fin_cases a <;> rfl

/-- The normalised node features plus the message, under the logistic, entry by entry. -/
abbrev G (x : S100000x128.Idx → EReal) (γ β μ σ2 : S1x128.Idx → EReal) (a : S100000x128.Idx → EReal) : S100000x128.Idx → EReal :=
  fun i => Ideal.logistic ((((x i - μ (ix2 (0 : Fin 1) (i 1))) * Ideal.rsqrt (σ2 (ix2 (0 : Fin 1) (i 1)) + Ideal.ofBits .f32 0x3727C5AC#32))
      * γ (ix2 (0 : Fin 1) (i 1)) + β (ix2 (0 : Fin 1) (i 1))) + a i)

/-- The printed index maps over the twenty points: the three row-blocked windows at block row t, the four parameter rows
    at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- What point t writes back is block t of `G` of the arrays as the region finds them. -/
theorem flushed_eq (c : Dev nD) (t : Fin cfg2.N) :
    (dat2 (F := Ideal) V c).flushed 6 t
      = ((cfg2.win 6).blk t).view.read (Elt Ideal)
          (G (V c main_arg0) (V c main_v25) (V c main_v26) (V c main_v27) (V c main_v28) (V c main_v24)) := by
  show (cfg2.win 6).cut (grid2.coords t) ((dat2 (F := Ideal) V c).after 6 t) = _
  rw [after2_6]
  unfold out2_6
  rw [View.canon_unit_zero hz]
  simp only [View.ld_unit_zero (S := S5000x128) hz, View.ld_unit_zero (S := S1x128) hz]
  obtain ⟨e00, e01, e10, e11, e20, e21, e30, e31, e40, e41, e50, e51, e60, e61⟩ := idx_facts t
  funext j
  obtain ⟨r, v, rfl⟩ : ∃ (r : Fin 5000) (v : Fin 128), j = ix2 r v := ⟨j 0, j 1, eq_ix2 j⟩
  refine (PayUpd.pay2_apply (iblk2 V c 0 t) (iblk2 V c 4 t) (iblk2 V c 3 t) (iblk2 V c 1 t) (iblk2 V c 2 t) (iblk2 V c 5 t) r v).trans ?_
  -- entry (r, v) of block t is row 5000·t + r, column v of the array
  show _ = G (V c main_arg0) (V c main_v25) (V c main_v26) (V c main_v27) (V c main_v28) (V c main_v24)
    (((cfg2.win 6).blk t).view.emb (ix2 r v))
  have hr : r.val < 5000 := r.isLt
  have hv : v.val < 128 := v.isLt
  have ho1 : ((((cfg2.win 6).blk t).view.emb (ix2 r v)) 1).val = v.val := by
    show win2_6.index t (1 : Fin 2) * 128 + 1 * v.val = _; omega
  -- the node features' entry
  have hx : iblk2 V c 0 t (ix2 r v) = V c main_arg0 (((cfg2.win 6).blk t).view.emb (ix2 r v)) := by
    show V c main_arg0 (((cfg2.win 0).blk t).view.emb (ix2 r v)) = _
    refine congrArg (V c main_arg0) (funext fun a => Fin.ext ?_)
    match a with
    | ⟨0, _⟩ => show win2_0.index t (0 : Fin 2) * 5000 + 1 * r.val = win2_6.index t (0 : Fin 2) * 5000 + 1 * r.val; omega
    | ⟨1, _⟩ => show win2_0.index t (1 : Fin 2) * 128 + 1 * v.val = win2_6.index t (1 : Fin 2) * 128 + 1 * v.val; omega
  -- the message's entry
  have ha : iblk2 V c 5 t (ix2 r v) = V c main_v24 (((cfg2.win 6).blk t).view.emb (ix2 r v)) := by
    show V c main_v24 (((cfg2.win 5).blk t).view.emb (ix2 r v)) = _
    refine congrArg (V c main_v24) (funext fun a => Fin.ext ?_)
    match a with
    | ⟨0, _⟩ => show win2_5.index t (0 : Fin 2) * 5000 + 1 * r.val = win2_6.index t (0 : Fin 2) * 5000 + 1 * r.val; omega
    | ⟨1, _⟩ => show win2_5.index t (1 : Fin 2) * 128 + 1 * v.val = win2_6.index t (1 : Fin 2) * 128 + 1 * v.val; omega
  -- the four parameter rows are read whole, at the entry's column
  have hg : iblk2 V c 1 t (ix2 (0 : Fin 1) v) = V c main_v25 (ix2 (0 : Fin 1) ((((cfg2.win 6).blk t).view.emb (ix2 r v)) 1)) := by
    show V c main_v25 (((cfg2.win 1).blk t).view.emb (ix2 (0 : Fin 1) v)) = _
    refine congrArg (V c main_v25) (funext fun a => Fin.ext ?_)
    match a with
    | ⟨0, _⟩ => show win2_1.index t (0 : Fin 2) * 1 + 1 * 0 = 0; omega
    | ⟨1, _⟩ => show win2_1.index t (1 : Fin 2) * 128 + 1 * v.val = _; rw [ho1]; omega
  have hbe : iblk2 V c 2 t (ix2 (0 : Fin 1) v) = V c main_v26 (ix2 (0 : Fin 1) ((((cfg2.win 6).blk t).view.emb (ix2 r v)) 1)) := by
    show V c main_v26 (((cfg2.win 2).blk t).view.emb (ix2 (0 : Fin 1) v)) = _
    refine congrArg (V c main_v26) (funext fun a => Fin.ext ?_)
    match a with
    | ⟨0, _⟩ => show win2_2.index t (0 : Fin 2) * 1 + 1 * 0 = 0; omega
    | ⟨1, _⟩ => show win2_2.index t (1 : Fin 2) * 128 + 1 * v.val = _; rw [ho1]; omega
  have hmu : iblk2 V c 3 t (ix2 (0 : Fin 1) v) = V c main_v27 (ix2 (0 : Fin 1) ((((cfg2.win 6).blk t).view.emb (ix2 r v)) 1)) := by
    show V c main_v27 (((cfg2.win 3).blk t).view.emb (ix2 (0 : Fin 1) v)) = _
    refine congrArg (V c main_v27) (funext fun a => Fin.ext ?_)
    match a with
    | ⟨0, _⟩ => show win2_3.index t (0 : Fin 2) * 1 + 1 * 0 = 0; omega
    | ⟨1, _⟩ => show win2_3.index t (1 : Fin 2) * 128 + 1 * v.val = _; rw [ho1]; omega
  have hva : iblk2 V c 4 t (ix2 (0 : Fin 1) v) = V c main_v28 (ix2 (0 : Fin 1) ((((cfg2.win 6).blk t).view.emb (ix2 r v)) 1)) := by
    show V c main_v28 (((cfg2.win 4).blk t).view.emb (ix2 (0 : Fin 1) v)) = _
    refine congrArg (V c main_v28) (funext fun a => Fin.ext ?_)
    match a with
    | ⟨0, _⟩ => show win2_4.index t (0 : Fin 2) * 1 + 1 * 0 = 0; omega
    | ⟨1, _⟩ => show win2_4.index t (1 : Fin 2) * 128 + 1 * v.val = _; rw [ho1]; omega
  rw [hx, ha, hg, hbe, hmu, hva]

/-- An index of the array lies in point t's block iff each coordinate lies in the block's range on its axis. -/
theorem mem_blk (t : Fin cfg2.N) (i : S100000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v29).slice (win2_6.rect t)).set ↔ _
  rw [View.set_slice_whole, Rect.mem_set_unit]
  exact Iff.rfl

/-- Every row of the array lies in some point's block: row ρ in block ρ / 5000. -/
theorem cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : grid2.N = 20 := N_2
  let t : Fin cfg2.N := ⟨(i 0).val / 5000, by show (i 0).val / 5000 < grid2.N; rw [hN]; omega⟩
  obtain ⟨-, -, -, -, -, -, -, -, -, -, -, -, e60, e61⟩ := idx_facts t
  have ht : t.val = (i 0).val / 5000 := rfl
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- THE ARRAY the region leaves: the update of the arrays it was entered with, at every entry. -/
theorem final (c : Dev nD) :
    (dat2 (F := Ideal) V c).arrAt 6 cfg2.N
      = G (V c main_arg0) (V c main_v25) (V c main_v26) (V c main_v27) (V c main_v28) (V c main_v24) :=
  (dat2 (F := Ideal) V c).arrAt_eq_of_cover 6
    (G (V c main_arg0) (V c main_v25) (V c main_v26) (V c main_v27) (V c main_v28) (V c main_v24))
    (fun t _ => flushed_eq V c t) (cover)

end Cert.KernelIdeal.Region2

end
-- ==== Proof.Region3.lean ====
/-
  What the hyperedge-update region leaves in its output array.

  The region walks ten blocks of 2000 rows.  At point t it reads rows 2000·t … 2000·t + 1999 of the hyperedge features x
  and of the messages a aggregated from the nodes, and the four whole parameter rows (scale γ, shift β, mean μ,
  variance σ²), and writes the same rows of the result.  Each written block is the restriction of ONE function of the
  whole arrays,
      G (i) = logistic ((((x i − μ (0, i₁)) · rsqrt (σ² (0, i₁) + ε)) · γ (0, i₁) + β (0, i₁)) + a i),
  and the ten blocks cover every row: the array ends at G.  Stated at any contents V the region is entered from.
-/
import proofs.«160724_j15118284882724_1_alg».proof.Proof.Gen.KernelIdeal.Frame
import proofs.«160724_j15118284882724_1_alg».proof.Proof.PayUpd
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The all-zero offset of a whole-buffer rectangle. -/
theorem hz : (![0, 0] : Fin 2 → Nat) = fun _ => 0 := funext fun a => by fin_cases a <;> rfl

/-- The normalised hyperedge features plus the message, under the logistic, entry by entry. -/
abbrev G (x : S20000x128.Idx → EReal) (γ β μ σ2 : S1x128.Idx → EReal) (a : S20000x128.Idx → EReal) : S20000x128.Idx → EReal :=
  fun i => Ideal.logistic ((((x i - μ (ix2 (0 : Fin 1) (i 1))) * Ideal.rsqrt (σ2 (ix2 (0 : Fin 1) (i 1)) + Ideal.ofBits .f32 0x3727C5AC#32))
      * γ (ix2 (0 : Fin 1) (i 1)) + β (ix2 (0 : Fin 1) (i 1))) + a i)

/-- The printed index maps over the ten points: the three row-blocked windows at block row t, the four parameter rows at
    block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- What point t writes back is block t of `G` of the arrays as the region finds them. -/
theorem flushed_eq (c : Dev nD) (t : Fin cfg3.N) :
    (dat3 (F := Ideal) V c).flushed 6 t
      = ((cfg3.win 6).blk t).view.read (Elt Ideal)
          (G (V c main_arg1) (V c main_v30) (V c main_v31) (V c main_v32) (V c main_v33) (V c main_v11)) := by
  show (cfg3.win 6).cut (grid3.coords t) ((dat3 (F := Ideal) V c).after 6 t) = _
  rw [after3_6]
  unfold out3_6
  rw [View.canon_unit_zero hz]
  simp only [View.ld_unit_zero (S := S2000x128) hz, View.ld_unit_zero (S := S1x128) hz]
  obtain ⟨e00, e01, e10, e11, e20, e21, e30, e31, e40, e41, e50, e51, e60, e61⟩ := idx_facts t
  funext j
  obtain ⟨r, v, rfl⟩ : ∃ (r : Fin 2000) (v : Fin 128), j = ix2 r v := ⟨j 0, j 1, eq_ix2 j⟩
  refine (PayUpd.pay3_apply (iblk3 V c 0 t) (iblk3 V c 4 t) (iblk3 V c 3 t) (iblk3 V c 1 t) (iblk3 V c 2 t) (iblk3 V c 5 t) r v).trans ?_
  -- entry (r, v) of block t is row 2000·t + r, column v of the array
  show _ = G (V c main_arg1) (V c main_v30) (V c main_v31) (V c main_v32) (V c main_v33) (V c main_v11)
    (((cfg3.win 6).blk t).view.emb (ix2 r v))
  have hr : r.val < 2000 := r.isLt
  have hv : v.val < 128 := v.isLt
  have ho1 : ((((cfg3.win 6).blk t).view.emb (ix2 r v)) 1).val = v.val := by
    show win3_6.index t (1 : Fin 2) * 128 + 1 * v.val = _; omega
  -- the hyperedge features' entry
  have hx : iblk3 V c 0 t (ix2 r v) = V c main_arg1 (((cfg3.win 6).blk t).view.emb (ix2 r v)) := by
    show V c main_arg1 (((cfg3.win 0).blk t).view.emb (ix2 r v)) = _
    refine congrArg (V c main_arg1) (funext fun a => Fin.ext ?_)
    match a with
    | ⟨0, _⟩ => show win3_0.index t (0 : Fin 2) * 2000 + 1 * r.val = win3_6.index t (0 : Fin 2) * 2000 + 1 * r.val; omega
    | ⟨1, _⟩ => show win3_0.index t (1 : Fin 2) * 128 + 1 * v.val = win3_6.index t (1 : Fin 2) * 128 + 1 * v.val; omega
  -- the message's entry
  have ha : iblk3 V c 5 t (ix2 r v) = V c main_v11 (((cfg3.win 6).blk t).view.emb (ix2 r v)) := by
    show V c main_v11 (((cfg3.win 5).blk t).view.emb (ix2 r v)) = _
    refine congrArg (V c main_v11) (funext fun a => Fin.ext ?_)
    match a with
    | ⟨0, _⟩ => show win3_5.index t (0 : Fin 2) * 2000 + 1 * r.val = win3_6.index t (0 : Fin 2) * 2000 + 1 * r.val; omega
    | ⟨1, _⟩ => show win3_5.index t (1 : Fin 2) * 128 + 1 * v.val = win3_6.index t (1 : Fin 2) * 128 + 1 * v.val; omega
  -- the four parameter rows are read whole, at the entry's column
  have hg : iblk3 V c 1 t (ix2 (0 : Fin 1) v) = V c main_v30 (ix2 (0 : Fin 1) ((((cfg3.win 6).blk t).view.emb (ix2 r v)) 1)) := by
    show V c main_v30 (((cfg3.win 1).blk t).view.emb (ix2 (0 : Fin 1) v)) = _
    refine congrArg (V c main_v30) (funext fun a => Fin.ext ?_)
    match a with
    | ⟨0, _⟩ => show win3_1.index t (0 : Fin 2) * 1 + 1 * 0 = 0; omega
    | ⟨1, _⟩ => show win3_1.index t (1 : Fin 2) * 128 + 1 * v.val = _; rw [ho1]; omega
  have hbe : iblk3 V c 2 t (ix2 (0 : Fin 1) v) = V c main_v31 (ix2 (0 : Fin 1) ((((cfg3.win 6).blk t).view.emb (ix2 r v)) 1)) := by
    show V c main_v31 (((cfg3.win 2).blk t).view.emb (ix2 (0 : Fin 1) v)) = _
    refine congrArg (V c main_v31) (funext fun a => Fin.ext ?_)
    match a with
    | ⟨0, _⟩ => show win3_2.index t (0 : Fin 2) * 1 + 1 * 0 = 0; omega
    | ⟨1, _⟩ => show win3_2.index t (1 : Fin 2) * 128 + 1 * v.val = _; rw [ho1]; omega
  have hmu : iblk3 V c 3 t (ix2 (0 : Fin 1) v) = V c main_v32 (ix2 (0 : Fin 1) ((((cfg3.win 6).blk t).view.emb (ix2 r v)) 1)) := by
    show V c main_v32 (((cfg3.win 3).blk t).view.emb (ix2 (0 : Fin 1) v)) = _
    refine congrArg (V c main_v32) (funext fun a => Fin.ext ?_)
    match a with
    | ⟨0, _⟩ => show win3_3.index t (0 : Fin 2) * 1 + 1 * 0 = 0; omega
    | ⟨1, _⟩ => show win3_3.index t (1 : Fin 2) * 128 + 1 * v.val = _; rw [ho1]; omega
  have hva : iblk3 V c 4 t (ix2 (0 : Fin 1) v) = V c main_v33 (ix2 (0 : Fin 1) ((((cfg3.win 6).blk t).view.emb (ix2 r v)) 1)) := by
    show V c main_v33 (((cfg3.win 4).blk t).view.emb (ix2 (0 : Fin 1) v)) = _
    refine congrArg (V c main_v33) (funext fun a => Fin.ext ?_)
    match a with
    | ⟨0, _⟩ => show win3_4.index t (0 : Fin 2) * 1 + 1 * 0 = 0; omega
    | ⟨1, _⟩ => show win3_4.index t (1 : Fin 2) * 128 + 1 * v.val = _; rw [ho1]; omega
  rw [hx, ha, hg, hbe, hmu, hva]

/-- An index of the array lies in point t's block iff each coordinate lies in the block's range on its axis. -/
theorem mem_blk (t : Fin cfg3.N) (i : S20000x128.Idx) :
    i ∈ ((cfg3.win 6).blk t).view.set ↔ ∀ a : Fin 2, win3_6.index t a * S2000x128.size a ≤ (i a).val
      ∧ (i a).val < win3_6.index t a * S2000x128.size a + S2000x128.size a := by
  show i ∈ ((View.whole main_v34).slice (win3_6.rect t)).set ↔ _
  rw [View.set_slice_whole, Rect.mem_set_unit]
  exact Iff.rfl

/-- Every row of the array lies in some point's block: row ρ in block ρ / 2000. -/
theorem cover (i : S20000x128.Idx) : ∃ t : Fin cfg3.N, (cfg3.win 6).flush t = true ∧ i ∈ ((cfg3.win 6).blk t).view.set := by
  have hi0 : (i 0).val < 20000 := (i 0).isLt
  have hi1 : (i 1).val < 128 := (i 1).isLt
  have hN : grid3.N = 10 := N_3
  let t : Fin cfg3.N := ⟨(i 0).val / 2000, by show (i 0).val / 2000 < grid3.N; rw [hN]; omega⟩
  obtain ⟨-, -, -, -, -, -, -, -, -, -, -, -, e60, e61⟩ := idx_facts t
  have ht : t.val = (i 0).val / 2000 := rfl
  refine ⟨t, flush3_6 t, ?_⟩
  rw [mem_blk]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 128 ≤ (i 1).val ∧ (i 1).val < win3_6.index t (1 : Fin 2) * 128 + 128; omega

/-- THE ARRAY the region leaves: the update of the arrays it was entered with, at every entry. -/
theorem final (c : Dev nD) :
    (dat3 (F := Ideal) V c).arrAt 6 cfg3.N
      = G (V c main_arg1) (V c main_v30) (V c main_v31) (V c main_v32) (V c main_v33) (V c main_v11) :=
  (dat3 (F := Ideal) V c).arrAt_eq_of_cover 6
    (G (V c main_arg1) (V c main_v30) (V c main_v31) (V c main_v32) (V c main_v33) (V c main_v11))
    (fun t _ => flushed_eq V c t) (cover)

end Cert.KernelIdeal.Region3

end
-- ==== Proof.KValue.lean ====
/-
  The kernel's two results as functions of the launch memory, on the extended reals.

  Reading the run's last fold at the two result buffers and walking back:
    node message            nm  = linear layer (x₀, W_nh, b_nh as a row)                      (first region)
    aggregated node message agN = scatter-sum of the gathered rows of nm                       (second stretch)
    concatenated features   xc  = x₁ beside agN                                                (second stretch)
    hyperedge message       he  = linear layer (xc, W_hn, b_hn as a row)                       (second region)
    aggregated edge message agE = scatter-sum of the gathered rows of he                       (third stretch)
    first result            = update (x₀; the node normalisation's parameters as rows; agE)    (third region)
    second result           = update (x₁; the hyperedge normalisation's parameters as rows; agN) (fourth region)
  Every argument array is read at its launch contents wherever it is used.
-/
import proofs.«160724_j15118284882724_1_alg».proof.Proof.Walk
import proofs.«160724_j15118284882724_1_alg».proof.Proof.Region0
import proofs.«160724_j15118284882724_1_alg».proof.Proof.Region1
import proofs.«160724_j15118284882724_1_alg».proof.Proof.Region2
import proofs.«160724_j15118284882724_1_alg».proof.Proof.Region3

set_option maxRecDepth 16384

noncomputable section

namespace Cert.KernelIdeal.KValue

open Cert.KernelIdeal Cert.KernelIdeal.Gen Cert.KernelIdeal.Walk Idealize.ShloMosaic Idealize.ShloMosaic.TcCoe
open Idealize.SL.Sem

variable (m : (ℓ : Loc nD τ sig) → Buf (Elt Ideal) ℓ) (ρ : Dev nD → PrngReg) (c : Dev nD)

/-! ## An argument array at each level it is read at -/

theorem arg2 (b : Ref sig .tc) (hb : b.idx.val < 16) (h0 : ∀ w, Pipeline.arrRef spec0 w ≠ b) :
    W2 m ρ c (Proc.devRef .tc b) = m ((c : Thread nD τ).loc b) := W2_arg m ρ c b hb h0
theorem arg3 (b : Ref sig .tc) (hb : b.idx.val < 16) (h0 : ∀ w, Pipeline.arrRef spec0 w ≠ b) :
    W3 m ρ c (Proc.devRef .tc b) = m ((c : Thread nD τ).loc b) := W3_arg m ρ c b hb (arg2 m ρ c b hb h0)
theorem arg4 (b : Ref sig .tc) (hb : b.idx.val < 16) (h0 : ∀ w, Pipeline.arrRef spec0 w ≠ b) (h1 : ∀ w, Pipeline.arrRef spec1 w ≠ b) :
    W4 m ρ c (Proc.devRef .tc b) = m ((c : Thread nD τ).loc b) := W4_keep m ρ c b h1 (arg3 m ρ c b hb h0)
theorem arg5 (b : Ref sig .tc) (hb : b.idx.val < 16) (h0 : ∀ w, Pipeline.arrRef spec0 w ≠ b) (h1 : ∀ w, Pipeline.arrRef spec1 w ≠ b) :
    W5 m ρ c (Proc.devRef .tc b) = m ((c : Thread nD τ).loc b) := W5_arg m ρ c b hb (arg4 m ρ c b hb h0 h1)
theorem arg6 (b : Ref sig .tc) (hb : b.idx.val < 16) (h0 : ∀ w, Pipeline.arrRef spec0 w ≠ b) (h1 : ∀ w, Pipeline.arrRef spec1 w ≠ b)
    (h2 : ∀ w, Pipeline.arrRef spec2 w ≠ b) :
    W6 m ρ c (Proc.devRef .tc b) = m ((c : Thread nD τ).loc b) := W6_keep m ρ c b h2 (arg5 m ρ c b hb h0 h1)
theorem arg7 (b : Ref sig .tc) (hb : b.idx.val < 16) (h0 : ∀ w, Pipeline.arrRef spec0 w ≠ b) (h1 : ∀ w, Pipeline.arrRef spec1 w ≠ b)
    (h2 : ∀ w, Pipeline.arrRef spec2 w ≠ b) :
    W7 m ρ c (Proc.devRef .tc b) = m ((c : Thread nD τ).loc b) := W7_arg m ρ c b hb (arg6 m ρ c b hb h0 h1 h2)

/-! ## The values between the regions -/

/-- The node message. -/
abbrev nm : S100000x128.Idx → EReal :=
  Region0.G (m ((c : Thread nD τ).loc main_arg0)) (m ((c : Thread nD τ).loc main_arg4)) (row (m ((c : Thread nD τ).loc main_arg5)))
/-- The node messages aggregated into the hyperedges. -/
abbrev agN : S20000x128.Idx → EReal :=
  aggNodes (F := Ideal) (nm m c) (m ((c : Thread nD τ).loc main_arg2)) (m ((c : Thread nD τ).loc main_arg3))
/-- The hyperedge message. -/
abbrev he : S20000x128.Idx → EReal :=
  Region1.G (beside (F := Ideal) (m ((c : Thread nD τ).loc main_arg1)) (agN m c)) (m ((c : Thread nD τ).loc main_arg6))
    (row (m ((c : Thread nD τ).loc main_arg7)))
/-- The hyperedge messages aggregated into the nodes. -/
abbrev agE : S100000x128.Idx → EReal :=
  aggEdges (F := Ideal) (he m c) (m ((c : Thread nD τ).loc main_arg3)) (m ((c : Thread nD τ).loc main_arg2))

/-! ## What each region is entered with -/

theorem V1_arg0 : V1 m ρ c main_arg0 = m ((c : Thread nD τ).loc main_arg0) := W1_arg m ρ c main_arg0 (by decide)
theorem V1_arg4 : V1 m ρ c main_arg4 = m ((c : Thread nD τ).loc main_arg4) := W1_arg m ρ c main_arg4 (by decide)
theorem V1_v0 : V1 m ρ c main_v0 = row (m ((c : Thread nD τ).loc main_arg5)) := W1_v0 m ρ c

/-- The first region leaves the node message. -/
theorem W2_nm : W2 m ρ c (Proc.devRef .tc main_v1) = nm m c := by
  rw [W2_v1, Region0.final (V1 m ρ) c, V1_arg0, V1_arg4, V1_v0]

/-- The second stretch leaves its aggregate. -/
theorem W3_agN : W3 m ρ c (Proc.devRef .tc main_v11) = agN m c := by
  rw [W3_v11, W2_nm, arg2 m ρ c main_arg2 (by decide) (by decide), arg2 m ρ c main_arg3 (by decide) (by decide)]

theorem V3_v12 : V3 m ρ c main_v12 = beside (F := Ideal) (m ((c : Thread nD τ).loc main_arg1)) (agN m c) := by
  show W3 m ρ c (Proc.devRef .tc main_v12) = _
  rw [W3_v12, W2_nm, arg2 m ρ c main_arg1 (by decide) (by decide), arg2 m ρ c main_arg2 (by decide) (by decide),
    arg2 m ρ c main_arg3 (by decide) (by decide)]
theorem V3_arg6 : V3 m ρ c main_arg6 = m ((c : Thread nD τ).loc main_arg6) := arg3 m ρ c main_arg6 (by decide) (by decide)
theorem V3_v13 : V3 m ρ c main_v13 = row (m ((c : Thread nD τ).loc main_arg7)) := by
  show W3 m ρ c (Proc.devRef .tc main_v13) = _
  rw [W3_v13, arg2 m ρ c main_arg7 (by decide) (by decide)]

/-- The second region leaves the hyperedge message. -/
theorem W4_he : W4 m ρ c (Proc.devRef .tc main_v14) = he m c := by
  rw [W4_v14, Region1.final (V3 m ρ) c, V3_v12, V3_arg6, V3_v13]

/-- The node features, read by the first and the third region through input windows. -/
theorem W5_arg0 : W5 m ρ c (Proc.devRef .tc main_arg0) = m ((c : Thread nD τ).loc main_arg0) :=
  W5_arg m ρ c main_arg0 (by decide) (W4_keep m ρ c main_arg0 (by decide) (W3_arg m ρ c main_arg0 (by decide) (W2_arg0 m ρ c)))

theorem V5_arg0 : V5 m ρ c main_arg0 = m ((c : Thread nD τ).loc main_arg0) := W5_arg0 m ρ c
theorem V5_v24 : V5 m ρ c main_v24 = agE m c := by
  show W5 m ρ c (Proc.devRef .tc main_v24) = _
  rw [W5_v24, W4_he, arg4 m ρ c main_arg3 (by decide) (by decide) (by decide), arg4 m ρ c main_arg2 (by decide) (by decide) (by decide)]
theorem V5_v25 : V5 m ρ c main_v25 = row (m ((c : Thread nD τ).loc main_arg8)) := by
  show W5 m ρ c (Proc.devRef .tc main_v25) = _
  rw [W5_v25, arg4 m ρ c main_arg8 (by decide) (by decide) (by decide)]
theorem V5_v26 : V5 m ρ c main_v26 = row (m ((c : Thread nD τ).loc main_arg9)) := by
  show W5 m ρ c (Proc.devRef .tc main_v26) = _
  rw [W5_v26, arg4 m ρ c main_arg9 (by decide) (by decide) (by decide)]
theorem V5_v27 : V5 m ρ c main_v27 = row (m ((c : Thread nD τ).loc main_arg10)) := by
  show W5 m ρ c (Proc.devRef .tc main_v27) = _
  rw [W5_v27, arg4 m ρ c main_arg10 (by decide) (by decide) (by decide)]
theorem V5_v28 : V5 m ρ c main_v28 = row (m ((c : Thread nD τ).loc main_arg11)) := by
  show W5 m ρ c (Proc.devRef .tc main_v28) = _
  rw [W5_v28, arg4 m ρ c main_arg11 (by decide) (by decide) (by decide)]

theorem V7_arg1 : V7 m ρ c main_arg1 = m ((c : Thread nD τ).loc main_arg1) :=
  arg7 m ρ c main_arg1 (by decide) (by decide) (by decide) (by decide)
theorem V7_v11 : V7 m ρ c main_v11 = agN m c :=
  W7_v11 m ρ c (W6_keep m ρ c main_v11 (by decide) (W5_v11 m ρ c (W4_keep m ρ c main_v11 (by decide) (W3_agN m ρ c))))
theorem V7_v30 : V7 m ρ c main_v30 = row (m ((c : Thread nD τ).loc main_arg12)) := by
  show W7 m ρ c (Proc.devRef .tc main_v30) = _
  rw [W7_v30, arg6 m ρ c main_arg12 (by decide) (by decide) (by decide) (by decide)]
theorem V7_v31 : V7 m ρ c main_v31 = row (m ((c : Thread nD τ).loc main_arg13)) := by
  show W7 m ρ c (Proc.devRef .tc main_v31) = _
  rw [W7_v31, arg6 m ρ c main_arg13 (by decide) (by decide) (by decide) (by decide)]
theorem V7_v32 : V7 m ρ c main_v32 = row (m ((c : Thread nD τ).loc main_arg14)) := by
  show W7 m ρ c (Proc.devRef .tc main_v32) = _
  rw [W7_v32, arg6 m ρ c main_arg14 (by decide) (by decide) (by decide) (by decide)]
theorem V7_v33 : V7 m ρ c main_v33 = row (m ((c : Thread nD τ).loc main_arg15)) := by
  show W7 m ρ c (Proc.devRef .tc main_v33) = _
  rw [W7_v33, arg6 m ρ c main_arg15 (by decide) (by decide) (by decide) (by decide)]

/-! ## The two results -/

/-- The first result: the node update. -/
theorem res_v29 : W8 m ρ c (Proc.devRef .tc main_v29)
    = Region2.G (m ((c : Thread nD τ).loc main_arg0)) (row (m ((c : Thread nD τ).loc main_arg8))) (row (m ((c : Thread nD τ).loc main_arg9)))
        (row (m ((c : Thread nD τ).loc main_arg10))) (row (m ((c : Thread nD τ).loc main_arg11))) (agE m c) := by
  rw [W8_v29, Region2.final (V5 m ρ) c, V5_arg0, V5_v25, V5_v26, V5_v27, V5_v28, V5_v24]

/-- The second result: the hyperedge update. -/
theorem res_v34 : W8 m ρ c (Proc.devRef .tc main_v34)
    = Region3.G (m ((c : Thread nD τ).loc main_arg1)) (row (m ((c : Thread nD τ).loc main_arg12))) (row (m ((c : Thread nD τ).loc main_arg13)))
        (row (m ((c : Thread nD τ).loc main_arg14))) (row (m ((c : Thread nD τ).loc main_arg15))) (agN m c) := by
  rw [W8_v34, Region3.final (V7 m ρ) c, V7_arg1, V7_v30, V7_v31, V7_v32, V7_v33, V7_v11]

end Cert.KernelIdeal.KValue

end
-- ==== Proof.Spec.lean ====
/-
  What the two kinds of kernel body compute, entry by entry, on the extended reals.

  * A linear layer followed by the logistic function: entry (r, v) of the result is
      logistic (∑ q < K, x (r, q) · w (q, v) + b v),
    a row of the left operand against a column of the weights, plus the bias of the column.
  * An evaluation-mode batch normalisation plus a message, followed by the logistic function: entry (r, v) is
      logistic ((((x (r, v) − μ v) · rsqrt (σ² v + ε)) · γ v + β v) + a (r, v)),
    the column's statistics and affine parameters applied to the entry, the aggregated message added.
  Both read one row of the row-indexed operands only, so a result computed a block of rows at a time is the same
  function of the whole arrays.  The logistic function written out as 1 / (1 + e^(−z)) is the same function.
-/
import Idealize.ShloMosaic.PureOps.Ideal.Laws
import Idealize.ShloMosaic.Lib.ValueIdx
import Idealize.ShloMosaic.Lib.IdealHost

noncomputable section

open scoped BigOperators

namespace Cert.Spec

open Idealize.ShloMosaic Idealize.ShloMosaic.ValueIdx

/-- The linear layer with a logistic on top, at result entry `j = (r, v)`. -/
def linSig {n K c : Nat} (x : (⟨2, ![n, K]⟩ : Shape).Idx → EReal) (w : (⟨2, ![K, c]⟩ : Shape).Idx → EReal)
    (b : (⟨1, ![c]⟩ : Shape).Idx → EReal) : (⟨2, ![n, c]⟩ : Shape).Idx → EReal :=
  fun j => Ideal.logistic ((∑ q : Fin K, x (ix2 (j 0) q) * w (ix2 q (j 1))) + b (ix1 (j 1)))

/-- The variance offset ε of the normalisation, as the float the programs write. -/
def eps : EReal := Ideal.ofBits .f32 0x3727C5AC#32

/-- The normalised entry plus the message, under the logistic, at entry `j = (r, v)`. -/
def bnSig {n c : Nat} (x : (⟨2, ![n, c]⟩ : Shape).Idx → EReal) (γ β μ σ2 : (⟨1, ![c]⟩ : Shape).Idx → EReal)
    (a : (⟨2, ![n, c]⟩ : Shape).Idx → EReal) : (⟨2, ![n, c]⟩ : Shape).Idx → EReal :=
  fun j => Ideal.logistic ((((x j - μ (ix1 (j 1))) * Ideal.rsqrt (σ2 (ix1 (j 1)) + eps)) * γ (ix1 (j 1)) + β (ix1 (j 1))) + a j)

/-- The logistic function spelt as a quotient, 1 / (1 + e^(−z)) with the float one, is the logistic function. -/
theorem div_one_add_exp_neg (z : EReal) :
    FloatOps.hostDivf (F := Ideal) (φ := .f32) (Ideal.ofBits .f32 0x3F800000#32)
      (FloatOps.addf (Ideal.ofBits .f32 0x3F800000#32) (FloatOps.hostUnary .exp (FloatOps.hostNegf z))) = Ideal.logistic z := by
  rw [Ideal.ofBits_one_f32]; rfl

end Cert.Spec

end
-- ==== Proof.RefValue.lean ====
/-
  The reference's stages, read as the same entry-by-entry functions the kernel's regions compute.

  The node message and the hyperedge message are each a matrix product with the weights, plus the bias row, under the
  logistic function written out as 1 / (1 + e^(−z)); entry (r, v) is  logistic (∑ q, x (r, q) · w (q, v) + b v).
  The two updates are the normalisation plus the aggregated message under the same spelling of the logistic.
  The aggregations (a gather through the wrapped index array, then an accumulating scatter) and the concatenation are
  never opened: they are the same operations of their operands on both sides.
-/
import proofs.«160724_j15118284882724_1_alg».proof.Proof.Gen.ReferenceIdeal.Read
import proofs.«160724_j15118284882724_1_alg».proof.Proof.Spec

noncomputable section

open scoped BigOperators

namespace Cert.ReferenceIdeal.RefValue

open Cert.ReferenceIdeal Cert.ReferenceIdeal.Read Idealize.ShloMosaic Idealize.ShloMosaic.ValueIdx

/-- The node message: the first linear layer with the logistic on top, at every entry. -/
theorem node_msg (x0 : (⟨S100000x128, .f32⟩ : BufTy).Contents (Elt Ideal)) (x4 : (⟨S128x128, .f32⟩ : BufTy).Contents (Elt Ideal))
    (x5 : (⟨S128, .f32⟩ : BufTy).Contents (Elt Ideal)) :
    val_main_v9 (F := Ideal) x0 x4 x5 = Cert.Spec.linSig x0 x4 x5 := by
  funext i
  rw [val_main_v9_apply, val_main_v8_apply, val_main_cst_0_apply, val_main_v7_apply, val_main_v6_apply, val_main_cst_apply,
    val_main_v5_apply, val_main_v4_apply, val_main_v3_apply, val_main_v0_apply, val_main_v2_apply, val_main_v1_apply]
  refine (Cert.Spec.div_one_add_exp_neg _).trans ?_
  have el : ∀ k : Fin 128, lidx_main_v0 i k = ix2 (i 0) k := fun k => funext fun a => by
    match a with | ⟨0, _⟩ => rfl | ⟨1, _⟩ => rfl
  have er : ∀ k : Fin 128, ridx_main_v0 i k = ix2 k (i 1) := fun k => funext fun a => by
    match a with | ⟨0, _⟩ => rfl | ⟨1, _⟩ => rfl
  have eb : idx_main_v1 (idx_main_v2 i) = ix1 (i 1) := funext fun a => by
    match a with | ⟨0, _⟩ => rfl
  simp only [el, er, eb]
  rfl

/-- The hyperedge message: the second linear layer with the logistic on top, of the concatenated features (left as they
    are: the hyperedge's own features beside the aggregated node messages), at every entry. -/
theorem he_msg (x0 : (⟨S100000x128, .f32⟩ : BufTy).Contents (Elt Ideal)) (x1 : (⟨S20000x128, .f32⟩ : BufTy).Contents (Elt Ideal))
    (x2 x3 : (⟨S640000, .i32⟩ : BufTy).Contents (Elt Ideal)) (x4 : (⟨S128x128, .f32⟩ : BufTy).Contents (Elt Ideal))
    (x5 : (⟨S128, .f32⟩ : BufTy).Contents (Elt Ideal)) (x6 : (⟨S256x128, .f32⟩ : BufTy).Contents (Elt Ideal))
    (x7 : (⟨S128, .f32⟩ : BufTy).Contents (Elt Ideal)) :
    val_main_v30 (F := Ideal) x0 x1 x2 x3 x4 x5 x6 x7
      = Cert.Spec.linSig (val_main_v20 (F := Ideal) x0 x1 x2 x3 x4 x5) x6 x7 := by
  funext i
  rw [val_main_v30_apply, val_main_v29_apply, val_main_cst_4_apply, val_main_v28_apply, val_main_v27_apply, val_main_cst_3_apply,
    val_main_v26_apply, val_main_v25_apply, val_main_v24_apply, val_main_v21_apply, val_main_v23_apply, val_main_v22_apply]
  refine (Cert.Spec.div_one_add_exp_neg _).trans ?_
  have el : ∀ k : Fin 256, lidx_main_v21 i k = ix2 (i 0) k := fun k => funext fun a => by
    match a with | ⟨0, _⟩ => rfl | ⟨1, _⟩ => rfl
  have er : ∀ k : Fin 256, ridx_main_v21 i k = ix2 k (i 1) := fun k => funext fun a => by
    match a with | ⟨0, _⟩ => rfl | ⟨1, _⟩ => rfl
  have eb : idx_main_v22 (idx_main_v23 i) = ix1 (i 1) := funext fun a => by
    match a with | ⟨0, _⟩ => rfl
  simp only [el, er, eb]
  rfl

/-- The node update: the normalised node features plus the aggregated hyperedge message (left as it is), under the
    logistic, at every entry. -/
theorem x0_out (x0 : (⟨S100000x128, .f32⟩ : BufTy).Contents (Elt Ideal)) (x1 : (⟨S20000x128, .f32⟩ : BufTy).Contents (Elt Ideal))
    (x2 x3 : (⟨S640000, .i32⟩ : BufTy).Contents (Elt Ideal)) (x4 : (⟨S128x128, .f32⟩ : BufTy).Contents (Elt Ideal))
    (x5 : (⟨S128, .f32⟩ : BufTy).Contents (Elt Ideal)) (x6 : (⟨S256x128, .f32⟩ : BufTy).Contents (Elt Ideal))
    (x7 x8 x9 x10 x11 : (⟨S128, .f32⟩ : BufTy).Contents (Elt Ideal)) :
    val_main_v62 (F := Ideal) x0 x1 x2 x3 x4 x5 x6 x7 x8 x9 x10 x11
      = Cert.Spec.bnSig x0 x8 x9 x10 x11 (val_main_v40 (F := Ideal) x0 x1 x2 x3 x4 x5 x6 x7) := by
  funext i
  rw [val_main_v62_apply, val_main_v61_apply, val_main_cst_10_apply, val_main_v60_apply, val_main_v59_apply, val_main_cst_9_apply,
    val_main_v58_apply, val_main_v57_apply, val_main_v56_apply, val_main_v55_apply, val_main_v52_apply, val_main_v49_apply,
    val_main_v43_apply, val_main_v42_apply, val_main_v41_apply, val_main_v48_apply, val_main_v47_apply, val_main_v46_apply,
    val_main_v45_apply, val_main_v44_apply, val_main_cst_8_apply, val_main_v51_apply, val_main_v50_apply, val_main_v54_apply,
    val_main_v53_apply]
  refine (Cert.Spec.div_one_add_exp_neg _).trans ?_
  have eμ : idx_main_v41 (idx_main_v42 i) = ix1 (i 1) := funext fun a => by match a with | ⟨0, _⟩ => rfl
  have eσ : idx_main_v47 (idx_main_v48 i) = ix1 (i 1) := funext fun a => by match a with | ⟨0, _⟩ => rfl
  have eγ : idx_main_v50 (idx_main_v51 i) = ix1 (i 1) := funext fun a => by match a with | ⟨0, _⟩ => rfl
  have eβ : idx_main_v53 (idx_main_v54 i) = ix1 (i 1) := funext fun a => by match a with | ⟨0, _⟩ => rfl
  simp only [eμ, eσ, eγ, eβ]
  rfl

/-- The hyperedge update: the normalised hyperedge features plus the aggregated node message (left as it is), under the
    logistic, at every entry. -/
theorem x1_out (x0 : (⟨S100000x128, .f32⟩ : BufTy).Contents (Elt Ideal)) (x1 : (⟨S20000x128, .f32⟩ : BufTy).Contents (Elt Ideal))
    (x2 x3 : (⟨S640000, .i32⟩ : BufTy).Contents (Elt Ideal)) (x4 : (⟨S128x128, .f32⟩ : BufTy).Contents (Elt Ideal))
    (x5 x12 x13 x14 x15 : (⟨S128, .f32⟩ : BufTy).Contents (Elt Ideal)) :
    val_main_v84 (F := Ideal) x0 x1 x2 x3 x4 x5 x12 x13 x14 x15
      = Cert.Spec.bnSig x1 x12 x13 x14 x15 (val_main_v19 (F := Ideal) x0 x2 x3 x4 x5) := by
  funext i
  rw [val_main_v84_apply, val_main_v83_apply, val_main_cst_13_apply, val_main_v82_apply, val_main_v81_apply, val_main_cst_12_apply,
    val_main_v80_apply, val_main_v79_apply, val_main_v78_apply, val_main_v77_apply, val_main_v74_apply, val_main_v71_apply,
    val_main_v65_apply, val_main_v64_apply, val_main_v63_apply, val_main_v70_apply, val_main_v69_apply, val_main_v68_apply,
    val_main_v67_apply, val_main_v66_apply, val_main_cst_11_apply, val_main_v73_apply, val_main_v72_apply, val_main_v76_apply,
    val_main_v75_apply]
  refine (Cert.Spec.div_one_add_exp_neg _).trans ?_
  have eμ : idx_main_v63 (idx_main_v64 i) = ix1 (i 1) := funext fun a => by match a with | ⟨0, _⟩ => rfl
  have eσ : idx_main_v69 (idx_main_v70 i) = ix1 (i 1) := funext fun a => by match a with | ⟨0, _⟩ => rfl
  have eγ : idx_main_v72 (idx_main_v73 i) = ix1 (i 1) := funext fun a => by match a with | ⟨0, _⟩ => rfl
  have eβ : idx_main_v75 (idx_main_v76 i) = ix1 (i 1) := funext fun a => by match a with | ⟨0, _⟩ => rfl
  simp only [eμ, eσ, eγ, eβ]
  rfl

end Cert.ReferenceIdeal.RefValue

end
-- ==== Proof.Bridge.lean ====
/-
  The kernel's values are the reference's values.

  Both programs compute, over agreeing arguments,
      nm  = logistic-topped linear layer of (x₀, W_nh, b_nh),
      agN = the node messages aggregated into the hyperedges (gather by node index, accumulating scatter by hyperedge index),
      he  = logistic-topped linear layer of (x₁ beside agN, W_hn, b_hn),
      agE = the hyperedge messages aggregated into the nodes,
      results = the two normalisation-plus-message updates under the logistic.
  The kernel computes the two layers and the two updates a block of rows at a time with the bias and the normalisation
  parameters as rows; the reference computes them on whole arrays with the logistic written as a quotient.  Entry by entry
  they are one function (a row's entry is the vector's entry).  The aggregations and the concatenation are the same host
  operations on both sides: equal operands give equal results, and they are never opened.
-/
import proofs.«160724_j15118284882724_1_alg».proof.Proof.KValue
import proofs.«160724_j15118284882724_1_alg».proof.Proof.RefValue
import Idealize.ShloMosaic.Lib.ValueLayout

noncomputable section

open scoped BigOperators

namespace Cert.Bridge

open Idealize.ShloMosaic Idealize.ShloMosaic.ValueIdx
open Cert.KernelIdeal (S100000x128 S20000x128 S640000 S128x128 S128 S256x128 S1x128 S20000x256)
open Cert.KernelIdeal.Walk (row aggNodes aggEdges beside)

variable (x0 : (⟨S100000x128, .f32⟩ : BufTy).Contents (Elt Ideal)) (x1 : (⟨S20000x128, .f32⟩ : BufTy).Contents (Elt Ideal))
  (x2 x3 : (⟨S640000, .i32⟩ : BufTy).Contents (Elt Ideal)) (x4 : (⟨S128x128, .f32⟩ : BufTy).Contents (Elt Ideal))
  (x5 : (⟨S128, .f32⟩ : BufTy).Contents (Elt Ideal)) (x6 : (⟨S256x128, .f32⟩ : BufTy).Contents (Elt Ideal))
  (x7 x8 x9 x10 x11 x12 x13 x14 x15 : (⟨S128, .f32⟩ : BufTy).Contents (Elt Ideal))

/-- A vector as a row, read at column v, is the vector at v. -/
theorem row_apply (x : (⟨S128, .f32⟩ : BufTy).Contents (Elt Ideal)) (v : Fin 128) :
    row (F := Ideal) x (ix2 (0 : Fin 1) v) = x (ix1 v) := by
  unfold row
  exact shapeCast_a_1a_apply x _ (0 : Fin 1) v

/-! ## The two layers and the two updates, entry by entry -/

theorem lin0 : Cert.KernelIdeal.Region0.G x0 x4 (row (F := Ideal) x5) = Cert.Spec.linSig x0 x4 x5 := by
  funext i
  obtain ⟨r, v, rfl⟩ : ∃ (r : Fin 100000) (v : Fin 128), i = ix2 r v := ⟨i 0, i 1, eq_ix2 i⟩
  show Ideal.logistic ((∑ q : Fin 128, x0 (ix2 r q) * x4 (ix2 q v)) + row (F := Ideal) x5 (ix2 (0 : Fin 1) v))
    = Ideal.logistic ((∑ q : Fin 128, x0 (ix2 r q) * x4 (ix2 q v)) + x5 (ix1 v))
  rw [row_apply]

theorem lin1 (xc : (⟨S20000x256, .f32⟩ : BufTy).Contents (Elt Ideal)) :
    Cert.KernelIdeal.Region1.G xc x6 (row (F := Ideal) x7) = Cert.Spec.linSig xc x6 x7 := by
  funext i
  obtain ⟨r, v, rfl⟩ : ∃ (r : Fin 20000) (v : Fin 128), i = ix2 r v := ⟨i 0, i 1, eq_ix2 i⟩
  show Ideal.logistic ((∑ q : Fin 256, xc (ix2 r q) * x6 (ix2 q v)) + row (F := Ideal) x7 (ix2 (0 : Fin 1) v))
    = Ideal.logistic ((∑ q : Fin 256, xc (ix2 r q) * x6 (ix2 q v)) + x7 (ix1 v))
  rw [row_apply]

theorem upd2 (a : (⟨S100000x128, .f32⟩ : BufTy).Contents (Elt Ideal)) :
    Cert.KernelIdeal.Region2.G x0 (row (F := Ideal) x8) (row (F := Ideal) x9) (row (F := Ideal) x10) (row (F := Ideal) x11) a
      = Cert.Spec.bnSig x0 x8 x9 x10 x11 a := by
  funext i
  obtain ⟨r, v, rfl⟩ : ∃ (r : Fin 100000) (v : Fin 128), i = ix2 r v := ⟨i 0, i 1, eq_ix2 i⟩
  show Ideal.logistic ((((x0 (ix2 r v) - row (F := Ideal) x10 (ix2 (0 : Fin 1) v))
      * Ideal.rsqrt (row (F := Ideal) x11 (ix2 (0 : Fin 1) v) + Ideal.ofBits .f32 0x3727C5AC#32))
      * row (F := Ideal) x8 (ix2 (0 : Fin 1) v) + row (F := Ideal) x9 (ix2 (0 : Fin 1) v)) + a (ix2 r v))
    = Ideal.logistic ((((x0 (ix2 r v) - x10 (ix1 v)) * Ideal.rsqrt (x11 (ix1 v) + Cert.Spec.eps)) * x8 (ix1 v) + x9 (ix1 v)) + a (ix2 r v))
  rw [row_apply, row_apply, row_apply, row_apply]
  rfl

theorem upd3 (a : (⟨S20000x128, .f32⟩ : BufTy).Contents (Elt Ideal)) :
    Cert.KernelIdeal.Region3.G x1 (row (F := Ideal) x12) (row (F := Ideal) x13) (row (F := Ideal) x14) (row (F := Ideal) x15) a
      = Cert.Spec.bnSig x1 x12 x13 x14 x15 a := by
  funext i
  obtain ⟨r, v, rfl⟩ : ∃ (r : Fin 20000) (v : Fin 128), i = ix2 r v := ⟨i 0, i 1, eq_ix2 i⟩
  show Ideal.logistic ((((x1 (ix2 r v) - row (F := Ideal) x14 (ix2 (0 : Fin 1) v))
      * Ideal.rsqrt (row (F := Ideal) x15 (ix2 (0 : Fin 1) v) + Ideal.ofBits .f32 0x3727C5AC#32))
      * row (F := Ideal) x12 (ix2 (0 : Fin 1) v) + row (F := Ideal) x13 (ix2 (0 : Fin 1) v)) + a (ix2 r v))
    = Ideal.logistic ((((x1 (ix2 r v) - x14 (ix1 v)) * Ideal.rsqrt (x15 (ix1 v) + Cert.Spec.eps)) * x12 (ix1 v) + x13 (ix1 v)) + a (ix2 r v))
  rw [row_apply, row_apply, row_apply, row_apply]
  rfl

/-! ## The shared host operations: the same functions of their operands in both programs -/

open Cert.ReferenceIdeal.Read in
/-- The reference aggregates the node messages by the same gather and accumulating scatter. -/
theorem aggNodes_ref : aggNodes (F := Ideal) (val_main_v9 (F := Ideal) x0 x4 x5) x2 x3 = val_main_v19 (F := Ideal) x0 x2 x3 x4 x5 := rfl

open Cert.ReferenceIdeal.Read in
/-- The reference concatenates the same two arrays the same way. -/
theorem beside_ref : beside (F := Ideal) x1 (val_main_v19 (F := Ideal) x0 x2 x3 x4 x5) = val_main_v20 (F := Ideal) x0 x1 x2 x3 x4 x5 := rfl

open Cert.ReferenceIdeal.Read in
/-- The reference aggregates the hyperedge messages by the same gather and accumulating scatter. -/
theorem aggEdges_ref : aggEdges (F := Ideal) (val_main_v30 (F := Ideal) x0 x1 x2 x3 x4 x5 x6 x7) x3 x2
    = val_main_v40 (F := Ideal) x0 x1 x2 x3 x4 x5 x6 x7 := rfl

/-! ## The chain -/

open Cert.ReferenceIdeal.Read Cert.ReferenceIdeal.RefValue

/-- The node message. -/
theorem nm_eq : Cert.KernelIdeal.Region0.G x0 x4 (row (F := Ideal) x5) = val_main_v9 (F := Ideal) x0 x4 x5 :=
  (lin0 x0 x4 x5).trans (node_msg x0 x4 x5).symm

/-- The node messages aggregated into the hyperedges. -/
theorem agN_eq : aggNodes (F := Ideal) (Cert.KernelIdeal.Region0.G x0 x4 (row (F := Ideal) x5)) x2 x3
    = val_main_v19 (F := Ideal) x0 x2 x3 x4 x5 :=
  (congrArg (fun z => aggNodes (F := Ideal) z x2 x3) (nm_eq x0 x4 x5)).trans (aggNodes_ref x0 x2 x3 x4 x5)

/-- The hyperedge message. -/
theorem he_eq : Cert.KernelIdeal.Region1.G
      (beside (F := Ideal) x1 (aggNodes (F := Ideal) (Cert.KernelIdeal.Region0.G x0 x4 (row (F := Ideal) x5)) x2 x3)) x6 (row (F := Ideal) x7)
    = val_main_v30 (F := Ideal) x0 x1 x2 x3 x4 x5 x6 x7 := by
  rw [agN_eq x0 x2 x3 x4 x5, beside_ref x0 x1 x2 x3 x4 x5, lin1]
  exact (he_msg x0 x1 x2 x3 x4 x5 x6 x7).symm

/-- The hyperedge messages aggregated into the nodes. -/
theorem agE_eq : aggEdges (F := Ideal) (Cert.KernelIdeal.Region1.G
      (beside (F := Ideal) x1 (aggNodes (F := Ideal) (Cert.KernelIdeal.Region0.G x0 x4 (row (F := Ideal) x5)) x2 x3)) x6 (row (F := Ideal) x7)) x3 x2
    = val_main_v40 (F := Ideal) x0 x1 x2 x3 x4 x5 x6 x7 :=
  (congrArg (fun z => aggEdges (F := Ideal) z x3 x2) (he_eq x0 x1 x2 x3 x4 x5 x6 x7)).trans (aggEdges_ref x0 x1 x2 x3 x4 x5 x6 x7)

/-- THE FIRST RESULT: the kernel's node update is the reference's. -/
theorem result0 : Cert.KernelIdeal.Region2.G x0 (row (F := Ideal) x8) (row (F := Ideal) x9) (row (F := Ideal) x10) (row (F := Ideal) x11)
      (aggEdges (F := Ideal) (Cert.KernelIdeal.Region1.G
        (beside (F := Ideal) x1 (aggNodes (F := Ideal) (Cert.KernelIdeal.Region0.G x0 x4 (row (F := Ideal) x5)) x2 x3)) x6 (row (F := Ideal) x7)) x3 x2)
    = val_main_v62 (F := Ideal) x0 x1 x2 x3 x4 x5 x6 x7 x8 x9 x10 x11 := by
  rw [agE_eq x0 x1 x2 x3 x4 x5 x6 x7, upd2]
  exact (x0_out x0 x1 x2 x3 x4 x5 x6 x7 x8 x9 x10 x11).symm

/-- THE SECOND RESULT: the kernel's hyperedge update is the reference's. -/
theorem result1 : Cert.KernelIdeal.Region3.G x1 (row (F := Ideal) x12) (row (F := Ideal) x13) (row (F := Ideal) x14) (row (F := Ideal) x15)
      (aggNodes (F := Ideal) (Cert.KernelIdeal.Region0.G x0 x4 (row (F := Ideal) x5)) x2 x3)
    = val_main_v84 (F := Ideal) x0 x1 x2 x3 x4 x5 x12 x13 x14 x15 := by
  rw [agN_eq x0 x2 x3 x4 x5, upd3]
  exact (x1_out x0 x1 x2 x3 x4 x5 x12 x13 x14 x15).symm

end Cert.Bridge

end
-- ==== Proof.lean ====
/-
  The certificate: a hypergraph message-passing layer, its dense parts in four row-blocked kernels, against the plain
  array program.

  Both programs compute, from node features x₀, hyperedge features x₁ and the incidence index arrays:
      nm  = logistic (x₀ · W_nh + b_nh)                          one message per node
      agN = the node messages summed into their incident hyperedges
      he  = logistic ([x₁ | agN] · W_hn + b_hn)                  one message per hyperedge
      agE = the hyperedge messages summed into their incident nodes
      results: logistic (norm₀ (x₀) + agE) and logistic (norm₁ (x₁) + agN),
  where normₖ (x) = (x − μ) · rsqrt (σ² + ε) · γ + β, column by column.
  The kernel program does the two matrix products and the two updates in row-blocked kernels (products of bf16-narrowed
  operands accumulated in f32: on the extended reals the narrowing is the identity and the product is the plain sum over
  the shared axis), and the gathers, accumulating scatters and the concatenation on the host, exactly as the reference
  does them.  A block's entry depends on its own row only, so the blocks are restrictions of one function of the whole
  arrays, and that function is the reference's entry by entry; the logistic written as 1 / (1 + e^(−z)) is the logistic.
  No law needs the inputs finite: the precondition is not opened.

  Frames: the two kernel programs' are the generated frame certificates; the reference's is its generated run with the
  results dropped.  The idealization rewrote nothing, so there is nothing to preserve.
-/
import proofs.«160724_j15118284882724_1_alg».proof.Defs
import proofs.«160724_j15118284882724_1_alg».proof.Proof.Gen.Kernel
import proofs.«160724_j15118284882724_1_alg».proof.Proof.Gen.Kernel.Skeleton
import proofs.«160724_j15118284882724_1_alg».proof.Proof.Gen.Kernel.Launch
import proofs.«160724_j15118284882724_1_alg».proof.Proof.Gen.Kernel.Points
import proofs.«160724_j15118284882724_1_alg».proof.Proof.Gen.Kernel.Frame
import proofs.«160724_j15118284882724_1_alg».proof.Proof.Gen.KernelIdeal
import proofs.«160724_j15118284882724_1_alg».proof.Proof.Gen.KernelIdeal.Skeleton
import proofs.«160724_j15118284882724_1_alg».proof.Proof.Gen.KernelIdeal.Launch
import proofs.«160724_j15118284882724_1_alg».proof.Proof.Gen.KernelIdeal.Points
import proofs.«160724_j15118284882724_1_alg».proof.Proof.Gen.KernelIdeal.Frame
import proofs.«160724_j15118284882724_1_alg».proof.Proof.Gen.ReferenceIdeal
import proofs.«160724_j15118284882724_1_alg».proof.Proof.Gen.Pre_finite_inputs
import proofs.«160724_j15118284882724_1_alg».proof.Proof.Gen.ReferenceIdeal.Run
import proofs.«160724_j15118284882724_1_alg».proof.Proof.Gen.ReferenceIdeal.Read
import proofs.«160724_j15118284882724_1_alg».proof.Proof.KRun
import proofs.«160724_j15118284882724_1_alg».proof.Proof.KValue
import proofs.«160724_j15118284882724_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From agreeing arguments both programs end with the same two arrays: the kernel's run leaves its results at the
    last fold of its buffer contents, which is the node update and the hyperedge update of the launch memory; the
    reference's run leaves its stages of its own launch memory; the arguments agree, and the two are one function. -/
theorem algebraic : Cert.algebraic_KernelIdeal_ReferenceIdeal := by
  intro m ρ m' ρ' _ hagree
  refine ⟨fun c => Cert.KernelIdeal.Gen.W8 m ρ c (Proc.devRef .tc Cert.KernelIdeal.main_v29),
    fun c => Cert.KernelIdeal.Gen.W8 m ρ c (Proc.devRef .tc Cert.KernelIdeal.main_v34),
    Cert.KernelIdeal.Results.run_results (F := Ideal) m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15⟩ := hagree c
    show _ = Cert.KernelIdeal.Gen.W8 m ρ c (Proc.devRef .tc Cert.KernelIdeal.main_v29)
    rw [Cert.ReferenceIdeal.Read.val_main_v62_eq, Cert.KernelIdeal.KValue.res_v29, h0, h1, h2, h3, h4, h5, h6, h7, h8, h9, h10, h11]
    exact (Cert.Bridge.result0 _ _ _ _ _ _ _ _ _ _ _ _).symm
  · obtain ⟨h0, h1, h2, h3, h4, h5, h6, h7, h8, h9, h10, h11, h12, h13, h14, h15⟩ := hagree c
    show _ = Cert.KernelIdeal.Gen.W8 m ρ c (Proc.devRef .tc Cert.KernelIdeal.main_v34)
    rw [Cert.ReferenceIdeal.Read.val_main_v84_eq, Cert.KernelIdeal.KValue.res_v34, h0, h1, h2, h3, h4, h5, h12, h13, h14, h15]
    exact (Cert.Bridge.result1 _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
